-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64x4 : Shape := ⟨3, ![262144, 64, 4]⟩
abbrev S262144x4 : Shape := ⟨2, ![262144, 4]⟩
abbrev S_ : Shape := ⟨0, ![]⟩

class Facts : Prop where
  bcast_S_S262144x64x4 : S_.BroadcastsInDim S262144x64x4 (![] : Fin 0 → Fin S262144x64x4.rank)
  reducesTo_S262144x64x4_S_d0_1_2 : S262144x64x4.ReducesTo [0, 1, 2] S_
  h_S_ : 0 < S_.numel
  bcast_S_S262144x4 : S_.BroadcastsInDim S262144x4 (![] : Fin 0 → Fin S262144x4.rank)
  reducesTo_S262144x4_S_d0_1 : S262144x4.ReducesTo [0, 1] S_

variable [Facts]

def fn {F : FTy → Type} [FloatOps F] (main_arg0 : FVec F S262144x64x4 .f32) (main_arg1 : FVec F S262144x4 .f32) : IVec S_ 1 :=
  let main_v0 : FVec F S262144x64x4 .f32 := Host.absf main_arg0
  let main_cst : FVec F S_ .f32 := constant S_ .f32 0x7F800000#32
  let main_v1 : FVec F S262144x64x4 .f32 := broadcastInDim S262144x64x4 ![] bcast_S_S262144x64x4 main_cst
  let main_v2 : IVec S262144x64x4 1 := cmpf .olt main_v0 main_v1
  let main_c : IVec S_ 1 := constantI S_ 1 1#1
  let main_v3 : IVec S_ 1 := (fun x v => Host.reduce IntOp.andi x v reducesTo_S262144x64x4_S_d0_1_2 h_S_) main_v2 main_c
  let main_v4 : FVec F S262144x4 .f32 := Host.absf main_arg1
  let main_cst_0 : FVec F S_ .f32 := constant S_ .f32 0x7F800000#32
  let main_v5 : FVec F S262144x4 .f32 := broadcastInDim S262144x4 ![] bcast_S_S262144x4 main_cst_0
  let main_v6 : IVec S262144x4 1 := cmpf .olt main_v4 main_v5
  let main_c_1 : IVec S_ 1 := constantI S_ 1 1#1
  let main_v7 : IVec S_ 1 := (fun x v => Host.reduce IntOp.andi x v reducesTo_S262144x4_S_d0_1 h_S_) main_v6 main_c_1
  let main_v8 : IVec S_ 1 := andi main_v3 main_v7
  main_v8
-- ==== Kernel.lean ====
abbrev S262144x64x4 : Shape := ⟨3, ![262144, 64, 4]⟩
abbrev S262144x4 : Shape := ⟨2, ![262144, 4]⟩
abbrev S2x1x128 : Shape := ⟨3, ![2, 1, 128]⟩
abbrev S4096x64x4 : Shape := ⟨3, ![4096, 64, 4]⟩
abbrev S4096x4 : Shape := ⟨2, ![4096, 4]⟩
abbrev S1x1x128 : Shape := ⟨3, ![1, 1, 128]⟩
abbrev S1x128 : Shape := ⟨2, ![1, 128]⟩
abbrev S4096x1x4 : Shape := ⟨3, ![4096, 1, 4]⟩
abbrev S4096x64x1 : Shape := ⟨3, ![4096, 64, 1]⟩
abbrev S4096x64 : Shape := ⟨2, ![4096, 64]⟩
abbrev S4096x1x1 : Shape := ⟨3, ![4096, 1, 1]⟩
abbrev S4096x1 : Shape := ⟨2, ![4096, 1]⟩
abbrev S4096x64x2 : Shape := ⟨3, ![4096, 64, 2]⟩
abbrev S4096x1x2 : Shape := ⟨3, ![4096, 1, 2]⟩
abbrev S4096 : Shape := ⟨1, ![4096]⟩
abbrev S4096x128 : Shape := ⟨2, ![4096, 128]⟩
abbrev S128 : Shape := ⟨1, ![128]⟩
abbrev S1x4096 : Shape := ⟨2, ![1, 4096]⟩
abbrev S1 : Shape := ⟨1, ![1]⟩
abbrev S1x1 : Shape := ⟨2, ![1, 1]⟩
abbrev S_ : Shape := ⟨0, ![]⟩
abbrev S1x50 : Shape := ⟨2, ![1, 50]⟩
abbrev S50 : Shape := ⟨1, ![50]⟩

abbrev nBuf : Space → Nat
  | .hbm => 13
  | .vmem => 8
  | .smem => 0
  | _ => 0

abbrev bufTy : (tb : Table) → Fin (tcTables nBuf tb) → BufTy
  | .hbm, ⟨0, _⟩ => ⟨S262144x64x4, .f32⟩
  | .hbm, ⟨1, _⟩ => ⟨S262144x4, .f32⟩
  | .hbm, ⟨2, _⟩ => ⟨S2x1x128, .f32⟩
  | .hbm, ⟨3, _⟩ => ⟨S2x1x128, .f32⟩
  | .hbm, ⟨4, _⟩ => ⟨S_, .f32⟩
  | .hbm, ⟨5, _⟩ => ⟨S1x128, .f32⟩
  | .hbm, ⟨6, _⟩ => ⟨S1x50, .f32⟩
  | .hbm, ⟨7, _⟩ => ⟨S50, .f32⟩
  | .hbm, ⟨8, _⟩ => ⟨S50, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4096x64x4, .f32⟩
  | .local _ .vmem, ⟨1, _⟩ => ⟨S4096x64x4, .f32⟩
  | .local _ .vmem, ⟨2, _⟩ => ⟨S4096x4, .f32⟩
  | .local _ .vmem, ⟨3, _⟩ => ⟨S4096x4, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S262144x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S4096x64x4_S4096x64x4_0_0_0 : ∀ a, (![0, 0, 0] : Fin 3 → Nat) a + S4096x64x4.size a ≤ S4096x64x4.size a
  h_S4096x64x4 : 0 < S4096x64x4.numel
  inb_S4096x4_S4096x4_0_0 : ∀ a, (![0, 0] : Fin 2 → Nat) a + S4096x4.size a ≤ S4096x4.size a
  h_S4096x4 : 0 < S4096x4.numel
  shapeCasts_S4096x4_S4096x1x4 : S4096x4.ShapeCasts S4096x1x4
  slices_S4096x64x4_o0_0_2_S4096x64x1 : S4096x64x4.Slices ![0, 0, 2] S4096x64x1
  shapeCasts_S4096x64x1_S4096x64 : S4096x64x1.ShapeCasts S4096x64
  slices_S4096x64x4_o0_0_0_S4096x64x1 : S4096x64x4.Slices ![0, 0, 0] S4096x64x1
  slices_S4096x64x4_o0_0_3_S4096x64x1 : S4096x64x4.Slices ![0, 0, 3] S4096x64x1
  slices_S4096x64x4_o0_0_1_S4096x64x1 : S4096x64x4.Slices ![0, 0, 1] S4096x64x1
  slices_S4096x1x4_o0_0_2_S4096x1x1 : S4096x1x4.Slices ![0, 0, 2] S4096x1x1
  shapeCasts_S4096x1x1_S4096x1 : S4096x1x1.ShapeCasts S4096x1
  slices_S4096x1x4_o0_0_0_S4096x1x1 : S4096x1x4.Slices ![0, 0, 0] S4096x1x1
  slices_S4096x1x4_o0_0_3_S4096x1x1 : S4096x1x4.Slices ![0, 0, 3] S4096x1x1
  slices_S4096x1x4_o0_0_1_S4096x1x1 : S4096x1x4.Slices ![0, 0, 1] S4096x1x1
  slices_S4096x64x4_o0_0_0_S4096x64x2 : S4096x64x4.Slices ![0, 0, 0] S4096x64x2
  slices_S4096x1x4_o0_0_0_S4096x1x2 : S4096x1x4.Slices ![0, 0, 0] S4096x1x2
  broadcasts_S4096x1x2_S4096x64x2 : S4096x1x2.Broadcasts S4096x64x2
  slices_S4096x64x4_o0_0_2_S4096x64x2 : S4096x64x4.Slices ![0, 0, 2] S4096x64x2
  slices_S4096x1x4_o0_0_2_S4096x1x2 : S4096x1x4.Slices ![0, 0, 2] S4096x1x2
  slices_S4096x64x2_o0_0_0_S4096x64x1 : S4096x64x2.Slices ![0, 0, 0] S4096x64x1
  slices_S4096x64x2_o0_0_1_S4096x64x1 : S4096x64x2.Slices ![0, 0, 1] S4096x64x1
  broadcasts_S4096x1_S4096x64 : S4096x1.Broadcasts S4096x64
  reduces_S4096x64_S4096 : S4096x64.Reduces [1] S4096
  iota_S4096x128_d1_w32 : S4096x128.Iotas .tc 32 [1]
  shapeCasts_S4096_S4096x1 : S4096.ShapeCasts S4096x1
  broadcasts_S4096x1_S4096x128 : S4096x1.Broadcasts S4096x128
  natLt_1_32 : 1 < 32
  reduces_S4096x128_S128 : S4096x128.Reduces [0] S128
  shapeCasts_S128_S1x128 : S128.ShapeCasts S1x128
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  iota_S1x128_d1_w32 : S1x128.Iotas .tc 32 [1]
  reducesTo_S2x1x128_S1x128_d0 : S2x1x128.ReducesTo [0] S1x128
  h_S_ : 0 < S_.numel
  slices_S1x128_S1x50_0_0 : S1x128.Slices ![0, 0] S1x50
  shapeCasts_S1x50_S50 : S1x50.ShapeCasts S50
  reducesTo_S2x1x128_S_d0_1_2 : S2x1x128.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64x4.size a ≤ S262144x64x4.size a
  hwx0_0 : ∀ i : grid0.Coords, EltTy.bits .f32 = 32 ∨ (Rect.block (s := S262144x64x4) S4096x64x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S262144x4.size a
  hwx0_1 : ∀ i : grid0.Coords, EltTy.bits .f32 = 32 ∨ (Rect.block (s := S262144x4) S4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_arg0) S4096x64x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x64x4 : Shape := ⟨3, ![262144, 64, 4]⟩
abbrev S262144x4 : Shape := ⟨2, ![262144, 4]⟩
abbrev S262144x1x4 : Shape := ⟨3, ![262144, 1, 4]⟩
abbrev S262144x64x1 : Shape := ⟨3, ![262144, 64, 1]⟩
abbrev S262144x64 : Shape := ⟨2, ![262144, 64]⟩
abbrev S262144x1x1 : Shape := ⟨3, ![262144, 1, 1]⟩
abbrev S262144x1 : Shape := ⟨2, ![262144, 1]⟩
abbrev S262144x64x2 : Shape := ⟨3, ![262144, 64, 2]⟩
abbrev S262144x1x2 : Shape := ⟨3, ![262144, 1, 2]⟩
abbrev S_ : Shape := ⟨0, ![]⟩
abbrev S262144 : Shape := ⟨1, ![262144]⟩
abbrev S50 : Shape := ⟨1, ![50]⟩

abbrev nBuf : Space → Nat
  | .hbm => 81
  | .vmem => 0
  | .smem => 0
  | _ => 0

abbrev bufTy : (tb : Table) → Fin (tcTables nBuf tb) → BufTy
  | .hbm, ⟨0, _⟩ => ⟨S262144x64x4, .f32⟩
  | .hbm, ⟨1, _⟩ => ⟨S262144x4, .f32⟩
  | .hbm, ⟨2, _⟩ => ⟨S262144x1x4, .f32⟩
  | .hbm, ⟨3, _⟩ => ⟨S262144x64x1, .f32⟩
  | .hbm, ⟨4, _⟩ => ⟨S262144x64, .f32⟩
  | .hbm, ⟨5, _⟩ => ⟨S262144x64x1, .f32⟩
  | .hbm, ⟨6, _⟩ => ⟨S262144x64, .f32⟩
  | .hbm, ⟨7, _⟩ => ⟨S262144x64, .f32⟩
  | .hbm, ⟨8, _⟩ => ⟨S262144x64x1, .f32⟩
  | .hbm, ⟨9, _⟩ => ⟨S262144x64, .f32⟩
  | .hbm, ⟨10, _⟩ => ⟨S262144x64x1, .f32⟩
  | .hbm, ⟨11, _⟩ => ⟨S262144x64, .f32⟩
  | .hbm, ⟨12, _⟩ => ⟨S262144x64, .f32⟩
  | .hbm, ⟨13, _⟩ => ⟨S262144x64, .f32⟩
  | .hbm, ⟨14, _⟩ => ⟨S262144x1x1, .f32⟩
  | .hbm, ⟨15, _⟩ => ⟨S262144x1, .f32⟩
  | .hbm, ⟨16, _⟩ => ⟨S262144x1x1, .f32⟩
  | .hbm, ⟨17, _⟩ => ⟨S262144x1, .f32⟩
  | .hbm, ⟨18, _⟩ => ⟨S262144x1, .f32⟩
  | .hbm, ⟨19, _⟩ => ⟨S262144x1x1, .f32⟩
  | .hbm, ⟨20, _⟩ => ⟨S262144x1, .f32⟩
  | .hbm, ⟨21, _⟩ => ⟨S262144x1x1, .f32⟩
  | .hbm, ⟨22, _⟩ => ⟨S262144x1, .f32⟩
  | .hbm, ⟨23, _⟩ => ⟨S262144x1, .f32⟩
  | .hbm, ⟨24, _⟩ => ⟨S262144x1, .f32⟩
  | .hbm, ⟨25, _⟩ => ⟨S262144x64x2, .f32⟩
  | .hbm, ⟨26, _⟩ => ⟨S262144x1x2, .f32⟩
  | .hbm, ⟨27, _⟩ => ⟨S262144x64x2, .f32⟩
  | .hbm, ⟨28, _⟩ => ⟨S262144x64x2, .f32⟩
  | .hbm, ⟨29, _⟩ => ⟨S262144x64x2, .f32⟩
  | .hbm, ⟨30, _⟩ => ⟨S262144x1x2, .f32⟩
  | .hbm, ⟨31, _⟩ => ⟨S262144x64x2, .f32⟩
  | .hbm, ⟨32, _⟩ => ⟨S262144x64x2, .f32⟩
  | .hbm, ⟨33, _⟩ => ⟨S262144x64x2, .f32⟩
  | .hbm, ⟨34, _⟩ => ⟨S_, .f32⟩
  | .hbm, ⟨35, _⟩ => ⟨S_, .f32⟩
  | .hbm, ⟨36, _⟩ => ⟨S262144x64x2, .f32⟩
  | .hbm, ⟨37, _⟩ => ⟨S262144x64x2, .f32⟩
  | .hbm, ⟨38, _⟩ => ⟨S262144x64x1, .f32⟩
  | .hbm, ⟨39, _⟩ => ⟨S262144x64, .f32⟩
  | .hbm, ⟨40, _⟩ => ⟨S262144x64x1, .f32⟩
  | .hbm, ⟨41, _⟩ => ⟨S262144x64, .f32⟩
  | .hbm, ⟨42, _⟩ => ⟨S262144x64, .f32⟩
  | .hbm, ⟨43, _⟩ => ⟨S262144x64, .f32⟩
  | .hbm, ⟨44, _⟩ => ⟨S262144x64, .f32⟩
  | .hbm, ⟨45, _⟩ => ⟨S262144x64, .f32⟩
  | .hbm, ⟨46, _⟩ => ⟨S_, .f32⟩
  | .hbm, ⟨47, _⟩ => ⟨S262144x64, .f32⟩
  | .hbm, ⟨48, _⟩ => ⟨S262144x64, .f32⟩
  | .hbm, ⟨49, _⟩ => ⟨S262144x64, .f32⟩
  | .hbm, ⟨50, _⟩ => ⟨S_, .f32⟩
  | .hbm, ⟨51, _⟩ => ⟨S262144, .f32⟩
  | .hbm, ⟨52, _⟩ => ⟨S_, .f32⟩
  | .hbm, ⟨53, _⟩ => ⟨S262144, .f32⟩
  | .hbm, ⟨54, _⟩ => ⟨S262144, .f32⟩
  | .hbm, ⟨55, _⟩ => ⟨S262144, .f32⟩
  | .hbm, ⟨56, _⟩ => ⟨S262144, .i32⟩
  | .hbm, ⟨57, _⟩ => ⟨S_, .i32⟩
  | .hbm, ⟨58, _⟩ => ⟨S262144, .i32⟩
  | .hbm, ⟨59, _⟩ => ⟨S262144, .i32⟩
  | .hbm, ⟨60, _⟩ => ⟨S_, .i32⟩
  | .hbm, ⟨61, _⟩ => ⟨S50, .i32⟩
  | .hbm, ⟨62, _⟩ => ⟨S_, .i32⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S_, .i32⟩
  | .hbm, ⟨67, _⟩ => ⟨S262144, .i32⟩
  | .hbm, ⟨68, _⟩ => ⟨S262144, .i1⟩
  | .hbm, ⟨69, _⟩ => ⟨S_, .i32⟩
  | .hbm, ⟨70, _⟩ => ⟨S262144, .i32⟩
  | .hbm, ⟨71, _⟩ => ⟨S262144, .i32⟩
  | .hbm, ⟨72, _⟩ => ⟨S262144, .i32⟩
  | .hbm, ⟨73, _⟩ => ⟨S262144x1, .i32⟩
  | .hbm, ⟨74, _⟩ => ⟨S_, .i32⟩
  | .hbm, ⟨75, _⟩ => ⟨S262144, .i32⟩
  | .hbm, ⟨76, _⟩ => ⟨S50, .i32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S262144x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_0 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_1 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c : Ref sig .tc := ⟨.hbm, 57, rfl⟩
abbrev main_v49 : Ref sig .tc := ⟨.hbm, 58, rfl⟩
abbrev main_v50 : Ref sig .tc := ⟨.hbm, 59, rfl⟩
abbrev main_c_3 : Ref sig .tc := ⟨.hbm, 60, rfl⟩
abbrev main_v51 : Ref sig .tc := ⟨.hbm, 61, rfl⟩
abbrev main_c_4 : Ref sig .tc := ⟨.hbm, 62, rfl⟩
abbrev main_call1_v0 : Ref sig .tc := ⟨.hbm, 63, rfl⟩
abbrev main_call1_v1 : Ref sig .tc := ⟨.hbm, 64, rfl⟩
abbrev main_v52 : Ref sig .tc := ⟨.hbm, 65, rfl⟩
abbrev main_c_5 : Ref sig .tc := ⟨.hbm, 66, rfl⟩
abbrev main_v53 : Ref sig .tc := ⟨.hbm, 67, rfl⟩
abbrev main_v54 : Ref sig .tc := ⟨.hbm, 68, rfl⟩
abbrev main_c_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩

abbrev nD : Nat := 1
abbrev τ : Topo := Topo.v7x

variable {F : FTy → Type} [FloatOps F]

class Facts₀ : Prop where
  bcast_S262144x4_S262144x1x4_0_2 : S262144x4.BroadcastsInDim S262144x1x4 (![0, 2] : Fin 2 → Fin S262144x1x4.rank)
  slices_S262144x64x4_S262144x64x1_0_0_2 : S262144x64x4.Slices ![0, 0, 2] S262144x64x1
  shapeCasts_S262144x64x1_S262144x64 : S262144x64x1.ShapeCasts S262144x64
  slices_S262144x64x4_S262144x64x1_0_0_0 : S262144x64x4.Slices ![0, 0, 0] S262144x64x1
  slices_S262144x64x4_S262144x64x1_0_0_3 : S262144x64x4.Slices ![0, 0, 3] S262144x64x1
  slices_S262144x64x4_S262144x64x1_0_0_1 : S262144x64x4.Slices ![0, 0, 1] S262144x64x1
  slices_S262144x1x4_S262144x1x1_0_0_2 : S262144x1x4.Slices ![0, 0, 2] S262144x1x1
  shapeCasts_S262144x1x1_S262144x1 : S262144x1x1.ShapeCasts S262144x1
  slices_S262144x1x4_S262144x1x1_0_0_0 : S262144x1x4.Slices ![0, 0, 0] S262144x1x1
  slices_S262144x1x4_S262144x1x1_0_0_3 : S262144x1x4.Slices ![0, 0, 3] S262144x1x1
  slices_S262144x1x4_S262144x1x1_0_0_1 : S262144x1x4.Slices ![0, 0, 1] S262144x1x1
  slices_S262144x64x4_S262144x64x2_0_0_0 : S262144x64x4.Slices ![0, 0, 0] S262144x64x2
  slices_S262144x1x4_S262144x1x2_0_0_0 : S262144x1x4.Slices ![0, 0, 0] S262144x1x2
  bcast_S262144x1x2_S262144x64x2_0_1_2 : S262144x1x2.BroadcastsInDim S262144x64x2 (![0, 1, 2] : Fin 3 → Fin S262144x64x2.rank)
  slices_S262144x64x4_S262144x64x2_0_0_2 : S262144x64x4.Slices ![0, 0, 2] S262144x64x2
  slices_S262144x1x4_S262144x1x2_0_0_2 : S262144x1x4.Slices ![0, 0, 2] S262144x1x2
  bcast_S_S262144x64x2 : S_.BroadcastsInDim S262144x64x2 (![] : Fin 0 → Fin S262144x64x2.rank)
  slices_S262144x64x2_S262144x64x1_0_0_0 : S262144x64x2.Slices ![0, 0, 0] S262144x64x1
  slices_S262144x64x2_S262144x64x1_0_0_1 : S262144x64x2.Slices ![0, 0, 1] S262144x64x1
  bcast_S262144x1_S262144x64_0_1 : S262144x1.BroadcastsInDim S262144x64 (![0, 1] : Fin 2 → Fin S262144x64.rank)
  bcast_S_S262144x64 : S_.BroadcastsInDim S262144x64 (![] : Fin 0 → Fin S262144x64.rank)
  reducesTo_S262144x64_S262144_d1 : S262144x64.ReducesTo [1] S262144
  h_S_ : 0 < S_.numel
  bcast_S_S262144 : S_.BroadcastsInDim S262144 (![] : Fin 0 → Fin S262144.rank)
  bcast_S_S50 : S_.BroadcastsInDim S50 (![] : Fin 0 → Fin S50.rank)
  bcast_S262144_S262144x1_0 : S262144.BroadcastsInDim S262144x1 (![0] : Fin 1 → Fin S262144x1.rank)
  reducesTo_S262144_S_d0 : S262144.ReducesTo [0] S_
  scatter_S50_S262144x1_S262144_n_0_0_1_wf : ScatterDims.WF S50 S262144x1 S262144 [] [0] [0] 1

variable [Facts₀]

def scatter_S50_S262144x1_S262144_n_0_0_1 : ScatterDims S50 S262144x1 S262144 where
  updateWindowDims := []
  insertedWindowDims := [0]
  scatterDimsToOperandDims := [0]
  indexVectorDim := 1
  wf := scatter_S50_S262144x1_S262144_n_0_0_1_wf

class Facts : Prop extends Facts₀ where

variable [Facts]
-- ==== Proof.Spec.lean ====
/-
  The mathematics both programs compute, stated once over the extended reals.

  For every ground-truth row n (262144 of them) and each of its 64 proposal boxes the aligned intersection
  over union is  overlap / max(area₁ + area₂ − overlap, ε),  overlap the product of the two clipped side
  lengths of the intersection rectangle; a row's value is the maximum of its 64 quotients (from −∞); its bin is
  min(⌊value / 0.02⌋ as a clamped 32-bit integer, 49).  The results are the histogram of the bins over the
  fifty bins, and the mean of the row maxima.
-/
import Idealize.ShloMosaic.PureOps.Ideal
import Idealize.ShloMosaic.PureOps.Ideal.Laws
import Idealize.ShloMosaic.Lib.ValueIdx

noncomputable section

open scoped BigOperators

namespace Cert.IouHist

open Idealize.ShloMosaic Idealize.ShloMosaic.ValueIdx

/-- The boxes [262144, 64, 4], the ground truth [262144, 4], the two per-core accumulators [2, 1, 128]. -/
abbrev SX : Shape := ⟨3, ![262144, 64, 4]⟩
abbrev SG : Shape := ⟨2, ![262144, 4]⟩
abbrev SA : Shape := ⟨3, ![2, 1, 128]⟩
abbrev SH : Shape := ⟨1, ![50]⟩
abbrev S0 : Shape := ⟨0, ![]⟩

/-- The floor under the union (the f32 nearest 1e-6), the bin width (the f32 nearest 0.02), the row count 262144. -/
abbrev eps : EReal := Ideal.ofBits .f32 0x358637BD#32
abbrev binw : EReal := Ideal.ofBits .f32 0x3CA3D70A#32
abbrev cnt : EReal := Ideal.ofBits .f32 0x48800000#32

/-- The intersection rectangle's area: each side clipped at zero. -/
def overlap (p g : Fin 4 → EReal) : EReal :=
  max 0 (min (p 2) (g 2) - max (p 0) (g 0)) * max 0 (min (p 3) (g 3) - max (p 1) (g 1))

/-- Intersection over union of a proposal box `p` and a ground-truth box `g` (x₁, y₁, x₂, y₂). -/
def iou (p g : Fin 4 → EReal) : EReal :=
  Ideal.div (overlap p g) (max ((p 2 - p 0) * (p 3 - p 1) + (g 2 - g 0) * (g 3 - g 1) - overlap p g) eps)

/-- A row's value: the largest quotient over its 64 proposals, from −∞. -/
def rowMax (P : Fin 64 → Fin 4 → EReal) (g : Fin 4 → EReal) : EReal :=
  (Finset.univ : Finset (Fin 64)).fold max (⊥ : EReal) (fun q => iou (P q) g)

/-- A value's bin: the floor of value / 0.02, as a clamped signed 32-bit integer, capped at 49. -/
def binOf (x : EReal) : BitVec 32 :=
  IntOp.minsi (Ideal.fptosi 32 (Ideal.liftRound Int.floor (Ideal.div x binw))) 49#32

/-- 1 where the value's bin is `l`, else 0. -/
def ind (x : EReal) (l : ℕ) : EReal := if binOf x = BitVec.ofNat 32 l then 1 else 0

/-- Row `n`'s value, from the two argument arrays. -/
def mx (X : SX.Idx → EReal) (G : SG.Idx → EReal) (n : Fin 262144) : EReal :=
  rowMax (fun q k => X (ix3 n q k)) (fun k => G (ix2 n k))

/-- The same over a natural row number (0 past the last row: never read). -/
def mxN (X : SX.Idx → EReal) (G : SG.Idx → EReal) (j : ℕ) : EReal :=
  if h : j < 262144 then mx X G ⟨j, h⟩ else 0

/-- How many rows fall in bin `b`. -/
def histCount (X : SX.Idx → EReal) (G : SG.Idx → EReal) (b : ℕ) : ℕ :=
  ((Finset.range 262144).filter fun j => binOf (mxN X G j) = BitVec.ofNat 32 b).card

/-- THE FIRST RESULT: the fifty counts, as 32-bit words. -/
def histSpec (X : SX.Idx → EReal) (G : SG.Idx → EReal) : SH.Idx → BitVec 32 :=
  fun b => BitVec.ofNat 32 (histCount X G (b 0).val)

/-- THE SECOND RESULT: the sum of the row values over the row count. -/
def meanSpec (X : SX.Idx → EReal) (G : SG.Idx → EReal) : S0.Idx → EReal :=
  fun _ => Ideal.div (∑ j ∈ Finset.range 262144, mxN X G j) cnt

/-- What core `c` of the kernel has accumulated in lane `l` of its histogram block after its 32 tiles: the number of
    its 131072 rows whose bin is `l`, as a sum of ones. -/
def histArr (X : SX.Idx → EReal) (G : SG.Idx → EReal) : SA.Idx → EReal :=
  fun i => ∑ j ∈ Finset.range 131072, ind (mxN X G ((i 0).val * 131072 + j)) (i 2).val

/-- And in lane `l` of its sum block: the sum of its rows' values in lane 0, zeros elsewhere. -/
def sumArr (X : SX.Idx → EReal) (G : SG.Idx → EReal) : SA.Idx → EReal :=
  fun i => ∑ j ∈ Finset.range 131072, (if (i 2).val = 0 then mxN X G ((i 0).val * 131072 + j) else 0)

end Cert.IouHist

end
-- ==== Proof.KDefs.lean ====
/-
  The kernel program's side of the bridge, named: the two argument arrays as the specification's arrays, and the
  host lines after the region as functions of the two accumulator arrays.
-/
import proofs.«146943_j72954314490246_1_alg».proof.Proof.Gen.KernelIdeal
import proofs.«146943_j72954314490246_1_alg».proof.Proof.Spec

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.IouHist

/-- The two argument arrays of core `c`, as the specification's arrays. -/
abbrev Xof (m : (ℓ : Loc nD τ sig) → Buf (Elt Ideal) ℓ) (c : Dev nD) : SX.Idx → EReal := m ((c.tc : Thread nD τ).loc main_arg0)
abbrev Gof (m : (ℓ : Loc nD τ sig) → Buf (Elt Ideal) ℓ) (c : Dev nD) : SG.Idx → EReal := m ((c.tc : Thread nD τ).loc main_arg1)

/-- A tile row's value, from the two input blocks of a grid point. -/
abbrev tileMax (x0 : Vec Ideal S4096x64x4 .f32) (x1 : Vec Ideal S4096x4 .f32) (r : Fin 4096) : EReal :=
  rowMax (fun q k => x0 (ix3 r q k)) (fun k => x1 (ix2 r k))

/-- The host lines after the region on the histogram accumulator: add the two cores' blocks, keep the first fifty
    lanes, convert to 32-bit integers. -/
def tailHist (A : Vec Ideal S2x1x128 .f32) : IVec S50 32 :=
  fptosi 32 (shapeCast S50 (extractStridedSlice S1x50 ![0, 0]
    (Host.reduceAdd A (constant (F := Ideal) S_ .f32 0x00000000#32) Facts₀.reducesTo_S2x1x128_S1x128_d0 Facts₀.h_S_) Facts₀.slices_S1x128_S1x50_0_0) Facts₀.shapeCasts_S1x50_S50)

/-- And on the sum accumulator: add everything, divide by the row count. -/
def tailMean (A : Vec Ideal S2x1x128 .f32) : Vec Ideal S_ .f32 :=
  Host.divf (Host.reduceAdd A (constant (F := Ideal) S_ .f32 0x00000000#32) Facts₀.reducesTo_S2x1x128_S_d0_1_2 Facts₀.h_S_) (constant (F := Ideal) S_ .f32 0x48800000#32)

end Cert.KernelIdeal.Val

end
-- ==== Proof.SpecFacts.lean ====
/-
  Order facts about the specification: every quotient, every row maximum is nonnegative, so every bin is a word
  between 0 and 49; and the two bridges between counting and the extended reals.
-/
import proofs.«146943_j72954314490246_1_alg».proof.Proof.Spec

noncomputable section

open scoped BigOperators

namespace Cert.IouHist

open Idealize.ShloMosaic Idealize.ShloMosaic.ValueIdx

theorem ofBits_neg_inf : Ideal.ofBits .f32 0xFF800000#32 = (⊥ : EReal) := by
  simp [Ideal.ofBits, Ideal.ieee]

theorem eps_pos : (0 : EReal) < eps := by
  show (0 : EReal) < Ideal.ofBits .f32 0x358637BD#32
  simp [Ideal.ofBits, Ideal.ieee, -EReal.coe_mul]

/-- The bin width is a positive real. -/
theorem binw_real : ∃ r : ℝ, 0 < r ∧ binw = (r : EReal) := by
  show ∃ r : ℝ, 0 < r ∧ Ideal.ofBits .f32 0x3CA3D70A#32 = (r : EReal)
  simp [Ideal.ofBits, Ideal.ieee, -EReal.coe_mul]

theorem cnt_eq : cnt = ((262144 : ℝ) : EReal) := by
  show Ideal.ofBits .f32 0x48800000#32 = ((262144 : ℝ) : EReal)
  simp [Ideal.ofBits, Ideal.ieee, -EReal.coe_mul]
  norm_num

theorem overlap_nonneg (p g : Fin 4 → EReal) : 0 ≤ overlap p g := by
  unfold overlap
  exact mul_nonneg (le_max_left _ _) (le_max_left _ _)

theorem iou_nonneg (p g : Fin 4 → EReal) : 0 ≤ iou p g := by
  unfold iou
  have hd : (0 : EReal) < max ((p 2 - p 0) * (p 3 - p 1) + (g 2 - g 0) * (g 3 - g 1) - overlap p g) eps :=
    lt_of_lt_of_le eps_pos (le_max_right _ _)
  rw [Ideal.div, if_neg (ne_of_gt hd)]
  exact mul_nonneg (overlap_nonneg p g) (EReal.inv_nonneg_of_nonneg hd.le)

theorem rowMax_nonneg (P : Fin 64 → Fin 4 → EReal) (g : Fin 4 → EReal) : 0 ≤ rowMax P g := by
  unfold rowMax
  rw [Finset.le_fold_max]
  exact Or.inr ⟨0, Finset.mem_univ _, iou_nonneg _ _⟩

theorem mxN_nonneg (X : SX.Idx → EReal) (G : SG.Idx → EReal) (j : ℕ) : 0 ≤ mxN X G j := by
  unfold mxN
  split
  · exact rowMax_nonneg _ _
  · exact le_refl _

/-- The clamped integer of a nonnegative extended real lies in 0 … 2³¹ − 1. -/
theorem toIntClamped_bounds {y : EReal} (hy : 0 ≤ y) :
    0 ≤ Ideal.toIntClamped (-(2 ^ (32 - 1) : Nat)) ((2 ^ (32 - 1) : Nat) - 1) y ∧
    Ideal.toIntClamped (-(2 ^ (32 - 1) : Nat)) ((2 ^ (32 - 1) : Nat) - 1) y ≤ 2 ^ 31 - 1 := by
  induction y using EReal.rec with
  | bot => simp at hy
  | top => simp [Ideal.toIntClamped_top]
  | coe r =>
    have hr : 0 ≤ r := EReal.coe_nonneg.mp hy
    rw [Ideal.toIntClamped_coe, if_pos hr]
    have hf : 0 ≤ ⌊r⌋ := Int.floor_nonneg.mpr hr
    have e1 : (-((2 ^ (32 - 1) : ℕ) : ℤ)) = -2147483648 := by norm_num
    have e2 : (((2 ^ (32 - 1) : ℕ) : ℤ) - 1) = 2147483647 := by norm_num
    rw [e1, e2]
    constructor <;> omega

/-- The floor of a nonnegative value over the bin width is nonnegative. -/
theorem floor_div_binw_nonneg {x : EReal} (hx : 0 ≤ x) :
    0 ≤ Ideal.liftRound Int.floor (Ideal.div x binw) := by
  obtain ⟨r, hr, hb⟩ := binw_real
  rw [hb, Ideal.div_coe hr.ne']
  have hr' : (0 : ℝ) < 1 / r := by positivity
  induction x using EReal.rec with
  | bot => simp at hx
  | top => rw [EReal.top_mul_coe_of_pos hr']; simp
  | coe a =>
    have ha : 0 ≤ a := EReal.coe_nonneg.mp hx
    rw [← EReal.coe_mul]
    show (0 : EReal) ≤ ((⌊a * (1 / r)⌋ : ℝ) : EReal)
    exact EReal.coe_nonneg.mpr (by exact_mod_cast Int.floor_nonneg.mpr (by positivity))

/-- The bin of a nonnegative value is the word of a natural number below 50. -/
theorem binOf_eq_ofNat {x : EReal} (hx : 0 ≤ x) : ∃ n : ℕ, n < 50 ∧ binOf x = BitVec.ofNat 32 n := by
  unfold binOf Ideal.fptosi
  obtain ⟨h0, h1⟩ := toIntClamped_bounds (floor_div_binw_nonneg hx)
  generalize Ideal.toIntClamped _ _ _ = q at h0 h1
  obtain ⟨m, rfl⟩ := Int.eq_ofNat_of_zero_le h0
  rw [BitVec.ofInt_natCast]
  unfold IntOp.minsi
  by_cases hm : m < 49
  · refine ⟨m, by omega, ?_⟩
    rw [if_pos]
    rw [BitVec.slt_eq_decide, decide_eq_true_eq, BitVec.toInt_eq_toNat_cond, BitVec.toInt_eq_toNat_cond,
      BitVec.toNat_ofNat, BitVec.toNat_ofNat]
    omega
  · refine ⟨49, by omega, ?_⟩
    rw [if_neg]
    rw [BitVec.slt_eq_decide, decide_eq_true_eq, BitVec.toInt_eq_toNat_cond, BitVec.toInt_eq_toNat_cond,
      BitVec.toNat_ofNat, BitVec.toNat_ofNat]
    omega

/-- The bin of a nonnegative value is a word in 0 … 49: not negative as a signed word, below 50 as a natural. -/
theorem binOf_not_slt {x : EReal} (hx : 0 ≤ x) : (binOf x).slt 0#32 = false := by
  obtain ⟨n, hn, h⟩ := binOf_eq_ofNat hx
  rw [h]
  interval_cases n <;> decide

theorem binOf_toNat_lt {x : EReal} (hx : 0 ≤ x) : (binOf x).toNat < 50 := by
  obtain ⟨n, hn, h⟩ := binOf_eq_ofNat hx
  rw [h, BitVec.toNat_ofNat]
  omega

theorem binOf_toInt {x : EReal} (hx : 0 ≤ x) : (binOf x).toInt = ((binOf x).toNat : ℤ) := by
  obtain ⟨n, hn, h⟩ := binOf_eq_ofNat hx
  rw [h, BitVec.toInt_eq_toNat_cond, BitVec.toNat_ofNat]
  omega

/-- A natural number below 2³¹, as an extended real, converts to the word of that number. -/
theorem fptosi_natCast (N : ℕ) (h : N < 2 ^ 31) : Ideal.fptosi 32 (((N : ℝ)) : EReal) = BitVec.ofNat 32 N := by
  unfold Ideal.fptosi
  rw [Ideal.toIntClamped_coe, if_pos (Nat.cast_nonneg N)]
  have hf : ⌊(N : ℝ)⌋ = (N : ℤ) := Int.floor_natCast N
  rw [hf]
  have : max (-((2 ^ (32 - 1) : ℕ) : ℤ)) (min (((2 ^ (32 - 1) : ℕ) : ℤ) - 1) (N : ℤ)) = (N : ℤ) := by
    norm_num
    omega
  rw [this, BitVec.ofInt_natCast]

/-- A sum of indicators is the count, as an extended real. -/
theorem sum_ind (s : Finset ℕ) (f : ℕ → EReal) (l : ℕ) :
    ∑ j ∈ s, ind (f j) l = ((((s.filter fun j => binOf (f j) = BitVec.ofNat 32 l).card : ℕ) : ℝ) : EReal) := by
  induction s using Finset.induction_on with
  | empty => simp
  | insert a s ha ih =>
    rw [Finset.sum_insert ha, ih, Finset.filter_insert]
    unfold ind
    by_cases hb : binOf (f a) = BitVec.ofNat 32 l
    · rw [if_pos hb, if_pos hb, Finset.card_insert_of_notMem (by simp [ha])]
      rw [Nat.cast_succ, EReal.coe_add, EReal.coe_one, add_comm]
    · rw [if_neg hb, if_neg hb, zero_add]

end Cert.IouHist

end
-- ==== Proof.KPay7.lean ====
/-
  The kernel body's arithmetic up to the row maxima, read one element at a time at the ideal instance: row r of a
  tile's maxima is the largest, over the row's 64 proposals, of intersection over union against the row's ground truth.
-/
import proofs.«146943_j72954314490246_1_alg».proof.Proof.Gen.KernelIdeal.Skeleton
import proofs.«146943_j72954314490246_1_alg».proof.Proof.KDefs
import proofs.«146943_j72954314490246_1_alg».proof.Proof.SpecFacts
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.IouHist

/-! ## Layout operations of the body, read at an index given by coordinates -/

section Layout
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, 1]` array cast to `[a, 1]` reads, at `(i, u)`, the operand at `(i, 0, 0)`. -/
theorem shapeCast_a11_a1_apply {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    omega)

/-- The ground-truth corners `[4096, 1, 2]` broadcast over the 64 proposals read, at `(r, q, k)`, the operand at `(r, 0, k)`. -/
theorem broadcastTo_corners_apply (v : S4096x1x2.Idx → α) (h : S4096x1x2.Broadcasts S4096x64x2)
    (r : Fin 4096) (q : Fin 64) (k : Fin 2) :
    broadcastTo S4096x64x2 v h (ix3 r q k) = v (ix3 r (0 : Fin 1) k) := by
  refine broadcastTo_apply v h (ix3 r q k) (ix3 r (0 : Fin 1) k) fun ax => ?_
  match ax with
  | ⟨0, _⟩ => show r.val = if (4096 : Nat) = 1 then 0 else r.val; rw [if_neg (by decide)]
  | ⟨1, _⟩ => rfl
  | ⟨2, _⟩ => show k.val = if (2 : Nat) = 1 then 0 else k.val; rw [if_neg (by decide)]

/-- The ground-truth areas `[4096, 1]` broadcast over the 64 proposals read, at `(r, q)`, the operand at `(r, 0)`. -/
theorem broadcastTo_area_apply (v : S4096x1.Idx → α) (h : S4096x1.Broadcasts S4096x64)
    (r : Fin 4096) (q : Fin 64) :
    broadcastTo S4096x64 v h (ix2 r q) = v (ix2 r (0 : Fin 1)) := by
  refine broadcastTo_apply v h (ix2 r q) (ix2 r (0 : Fin 1)) fun ax => ?_
  match ax with
  | ⟨0, _⟩ => show r.val = if (4096 : Nat) = 1 then 0 else r.val; rw [if_neg (by decide)]
  | ⟨1, _⟩ => rfl

end Layout

/-! ## The body's values at an index -/

/-- The ground truth with its unit axis put in reads the ground truth. -/
theorem pay3_apply (x1 : Vec Ideal S4096x4 .f32) (r : Fin 4096) (u : Fin 1) (k : Fin 4) :
    k0_pay3 (F := Ideal) x1 (ix3 r u k) = x1 (ix2 r k) := by
  unfold k0_pay3
  exact shapeCast_ab_a1b_apply x1 _ r u k

/-- The product of the two clipped sides at `(r, q)` is the specification's overlap of proposal `q` of row `r` with the
    row's ground truth. -/
theorem pay4_apply (x0 : Vec Ideal S4096x64x4 .f32) (x1 : Vec Ideal S4096x4 .f32) (r : Fin 4096) (q : Fin 64) :
    k0_pay4 (F := Ideal) x0 x1 (ix2 r q) = overlap (fun k => x0 (ix3 r q k)) (fun k => x1 (ix2 r k)) := by
  unfold k0_pay4 overlap
  rw [mulf_apply, shapeCast_ab1_ab_apply, shapeCast_ab1_ab_apply,
    slice3_axis2_apply 0 _ _ r q (0 : Fin 1) (0 : Fin 2) rfl, slice3_axis2_apply 1 _ _ r q (0 : Fin 1) (1 : Fin 2) rfl]
  simp only [maximumf_apply, subf_apply, minimumf_apply, broadcast_apply]
  rw [broadcastTo_corners_apply, broadcastTo_corners_apply, broadcastTo_corners_apply, broadcastTo_corners_apply,
    slice3_axis2_apply 2 x0 _ r q (0 : Fin 2) (2 : Fin 4) rfl, slice3_axis2_apply 2 x0 _ r q (1 : Fin 2) (3 : Fin 4) rfl,
    slice3_axis2_apply 0 x0 _ r q (0 : Fin 2) (0 : Fin 4) rfl, slice3_axis2_apply 0 x0 _ r q (1 : Fin 2) (1 : Fin 4) rfl,
    slice3_axis2_apply 2 (k0_pay3 x1) _ r (0 : Fin 1) (0 : Fin 2) (2 : Fin 4) rfl,
    slice3_axis2_apply 2 (k0_pay3 x1) _ r (0 : Fin 1) (1 : Fin 2) (3 : Fin 4) rfl,
    slice3_axis2_apply 0 (k0_pay3 x1) _ r (0 : Fin 1) (0 : Fin 2) (0 : Fin 4) rfl,
    slice3_axis2_apply 0 (k0_pay3 x1) _ r (0 : Fin 1) (1 : Fin 2) (1 : Fin 4) rfl,
    pay3_apply, pay3_apply, pay3_apply, pay3_apply, Ideal.ofBits_def, Ideal.ofBits_zero_f32]

/-- The sum of the two areas less the overlap, at `(r, q)`. -/
theorem pay5_apply (x0 : Vec Ideal S4096x64x4 .f32) (x1 : Vec Ideal S4096x4 .f32) (r : Fin 4096) (q : Fin 64) :
    k0_pay5 (F := Ideal) x0 x1 (ix2 r q)
      = (x0 (ix3 r q 2) - x0 (ix3 r q 0)) * (x0 (ix3 r q 3) - x0 (ix3 r q 1))
        + (x1 (ix2 r 2) - x1 (ix2 r 0)) * (x1 (ix2 r 3) - x1 (ix2 r 1))
        - overlap (fun k => x0 (ix3 r q k)) (fun k => x1 (ix2 r k)) := by
  unfold k0_pay5
  simp only [subf_apply, addf_apply, mulf_apply]
  rw [pay4_apply, broadcastTo_area_apply]
  simp only [subf_apply, mulf_apply]
  rw [shapeCast_ab1_ab_apply, shapeCast_ab1_ab_apply, shapeCast_ab1_ab_apply, shapeCast_ab1_ab_apply,
    shapeCast_a11_a1_apply, shapeCast_a11_a1_apply, shapeCast_a11_a1_apply, shapeCast_a11_a1_apply,
    slice3_axis2_apply 2 x0 _ r q (0 : Fin 1) (2 : Fin 4) rfl, slice3_axis2_apply 0 x0 _ r q (0 : Fin 1) (0 : Fin 4) rfl,
    slice3_axis2_apply 3 x0 _ r q (0 : Fin 1) (3 : Fin 4) rfl, slice3_axis2_apply 1 x0 _ r q (0 : Fin 1) (1 : Fin 4) rfl,
    slice3_axis2_apply 2 (k0_pay3 x1) _ r (0 : Fin 1) (0 : Fin 1) (2 : Fin 4) rfl,
    slice3_axis2_apply 0 (k0_pay3 x1) _ r (0 : Fin 1) (0 : Fin 1) (0 : Fin 4) rfl,
    slice3_axis2_apply 3 (k0_pay3 x1) _ r (0 : Fin 1) (0 : Fin 1) (3 : Fin 4) rfl,
    slice3_axis2_apply 1 (k0_pay3 x1) _ r (0 : Fin 1) (0 : Fin 1) (1 : Fin 4) rfl,
    pay3_apply, pay3_apply, pay3_apply, pay3_apply]

/-- The floor under the union is the same at every index. -/
theorem pay6_apply (i : S4096x64.Idx) : k0_pay6 (F := Ideal) i = eps := rfl

/-- Row `r` of the tile's maxima is the specification's row maximum of the tile's row `r`. -/
theorem pay7_apply (x0 : Vec Ideal S4096x64x4 .f32) (x1 : Vec Ideal S4096x4 .f32) (r : Fin 4096) :
    k0_pay7 (F := Ideal) (k0_pay4 x0 x1) (k0_pay5 x0 x1) k0_pay6 (ix1 r) = tileMax x0 x1 r := by
  unfold k0_pay7
  -- the reduction over the proposals' axis is the fold of `max` from −∞ over that axis's 64 coordinates
  refine (Ideal.multiReduction_maximumf_single (φ := .f32) (s := S4096x64) (t := S4096) (a := 1) _ 0xFF800000#32
    reduces_S4096x64_S4096 (.inl rfl) rfl (ix1 r)).trans ?_
  -- the index put back under row `r` at proposal `q` is `(r, q)`
  have hlift : ∀ q : Fin 64, reduces_S4096x64_S4096.lift (ix1 r) q = ix2 r q := fun q => funext fun a =>
    match a with
    | ⟨0, _⟩ => Fin.ext rfl
    | ⟨1, _⟩ => Fin.ext rfl
  have hstart : (FloatOps.ofBits (F := Ideal) .f32 0xFF800000#32) = (⊥ : EReal) := ofBits_neg_inf
  unfold tileMax rowMax
  rw [hstart]
  refine congrArg (fun f : Fin 64 → EReal => Finset.fold max (⊥ : EReal) f (Finset.univ : Finset (Fin 64)))
    (funext fun (q : Fin 64) => ?_)
  -- at `(r, q)`: overlap over the larger of (area₁ + area₂ − overlap) and ε
  show divf (k0_pay4 x0 x1) (maximumf (k0_pay5 x0 x1) k0_pay6) (reduces_S4096x64_S4096.lift (ix1 r) q) = _
  rw [hlift q, divf_apply, maximumf_apply, pay4_apply, pay5_apply, pay6_apply]
  rfl

end Cert.KernelIdeal.Val

end
-- ==== Proof.KPay.lean ====
/-
  The kernel body's arithmetic after the row maxima, read one element at a time at the ideal instance: what one
  grid point adds to each lane of the two accumulator blocks.
-/
import proofs.«146943_j72954314490246_1_alg».proof.Proof.Gen.KernelIdeal.Skeleton
import proofs.«146943_j72954314490246_1_alg».proof.Proof.KDefs
import proofs.«146943_j72954314490246_1_alg».proof.Proof.KPay7
import proofs.«146943_j72954314490246_1_alg».proof.Proof.SpecFacts
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.IouHist

/-- The one-bit test "a = b" of two 32-bit words, widened to 32 bits and converted as a signed integer, is 1 where the
    words are equal and 0 where they differ. -/
theorem sitofp_cmpi_eq {a b a' b' : BitVec 32} (ha : a = a') (hb : b = b') :
    FloatOps.sitofp (F := Ideal) .f32 ((IntOp.cmpi .eq a b).setWidth 32) = (if b' = a' then (1 : EReal) else 0) := by
  subst ha; subst hb
  show ((((IntOp.cmpi .eq a b).setWidth 32).toInt : ℝ) : EReal) = _
  by_cases h : b = a
  · subst h
    rw [if_pos rfl]
    have h1 : IntOp.cmpi .eq b b = 1#1 := by simp [IntOp.cmpi]
    rw [h1]
    have h2 : ((1#1 : BitVec 1).setWidth 32).toInt = 1 := by decide
    rw [h2]; simp
  · rw [if_neg h]
    have h1 : IntOp.cmpi .eq a b = 0#1 := by
      have : (a == b) = false := by simpa using (fun e : a = b => h e.symm)
      simp [IntOp.cmpi, this]
    rw [h1]
    have h2 : ((0#1 : BitVec 1).setWidth 32).toInt = 0 := by decide
    rw [h2]; simp

/-- A select on the test "lane word = 0", for a lane number below 128, is the `if` on the lane number. -/
theorem select_lane_eq0 {α : Type} (n : ℕ) (hn : n < 128) (A B : α) :
    Scalar.select (IntOp.cmpi .eq (BitVec.ofNat 32 n) 0#32) A B = if n = 0 then A else B := by
  by_cases h : n = 0
  · subst h; rw [if_pos rfl]; rfl
  · rw [if_neg h]
    have hne : BitVec.ofNat 32 n ≠ 0#32 := by
      intro e
      have e' := congrArg BitVec.toNat e
      simp at e'
      omega
    have h0 : IntOp.cmpi .eq (BitVec.ofNat 32 n) 0#32 = 0#1 := by
      have : (BitVec.ofNat 32 n == 0#32) = false := by simpa using hne
      simp [IntOp.cmpi, this]
    rw [h0]; exact select_zero _ _

/-- What the histogram store writes in lane `y 2`: what was there plus the number of the tile's rows in that bin. -/
theorem pay8_apply (x0 : Vec Ideal S4096x64x4 .f32) (x1 : Vec Ideal S4096x4 .f32) (v : Vec Ideal S1x1x128 .f32) (y : S1x1x128.Idx) :
    k0_pay8 (F := Ideal) (k0_pay4 x0 x1) (k0_pay5 x0 x1) k0_pay6 v y
      = v y + ∑ r : Fin 4096, ind (tileMax x0 x1 r) (y 2).val := by
  obtain ⟨a, b, l, rfl⟩ : ∃ (a : Fin 1) (b : Fin 1) (l : Fin 128), y = ix3 a b l := ⟨y 0, y 1, y 2, eq_ix3 y⟩
  have ha : a.val = 0 := by omega
  have hb : b.val = 0 := by omega
  unfold k0_pay8
  refine (shapeCast_apply _ _ (ix3 a b l) (ix2 b l) ?_).trans ?_
  · rw [Shape.rowMajor_val_two, Shape.rowMajor_val_three]
    show b.val * 128 + l.val = (a.val * 1 + b.val) * 128 + l.val
    omega
  rw [addf_apply]
  congr 1
  · refine (shapeCast_apply _ _ (ix2 b l) (ix3 a b l) ?_).trans rfl
    rw [Shape.rowMajor_val_two, Shape.rowMajor_val_three]
    show (a.val * 1 + b.val) * 128 + l.val = b.val * 128 + l.val
    omega
  · refine (shapeCast_apply _ _ (ix2 b l) (ix1 l) ?_).trans ?_
    · rw [Shape.rowMajor_val_two, Shape.rowMajor_val_one]
      show l.val = b.val * 128 + l.val
      omega
    refine (Ideal.multiReduction_add_single _ _ _ _ _ _).trans ?_
    refine Finset.sum_congr rfl (fun (r : Fin 4096) _ => ?_)
    refine sitofp_cmpi_eq (a' := BitVec.ofNat 32 l.val) (b' := binOf (tileMax x0 x1 r)) ?_ ?_
    · exact (iota_single_apply _ _ _ _ _ _).trans rfl
    · refine (broadcastTo_apply _ _ _ (ix2 r (0 : Fin 1)) ?_).trans ?_
      · intro ax
        match ax with
        | ⟨0, _⟩ => rfl
        | ⟨1, _⟩ => rfl
      refine (shapeCast_apply _ _ _ (ix1 r) ?_).trans ?_
      · rw [Shape.rowMajor_val_one, Shape.rowMajor_val_two]
        show r.val = r.val * 1 + 0
        omega
      show binOf (k0_pay7 (F := Ideal) (k0_pay4 x0 x1) (k0_pay5 x0 x1) k0_pay6 (ix1 r)) = _
      rw [pay7_apply]

/-- What the sum store writes in lane `y 2`: what was there plus, in lane 0 only, the tile's sum of row maxima. -/
theorem pay9_apply (x0 : Vec Ideal S4096x64x4 .f32) (x1 : Vec Ideal S4096x4 .f32) (v : Vec Ideal S1x1x128 .f32) (y : S1x1x128.Idx) :
    k0_pay9 (F := Ideal) (k0_pay4 x0 x1) (k0_pay5 x0 x1) k0_pay6 v y
      = v y + ∑ r : Fin 4096, (if (y 2).val = 0 then tileMax x0 x1 r else 0) := by
  obtain ⟨a, b, l, rfl⟩ : ∃ (a : Fin 1) (b : Fin 1) (l : Fin 128), y = ix3 a b l := ⟨y 0, y 1, y 2, eq_ix3 y⟩
  have ha : a.val = 0 := by omega
  have hb : b.val = 0 := by omega
  unfold k0_pay9
  refine (shapeCast_apply _ _ (ix3 a b l) (ix2 b l) ?_).trans ?_
  · rw [Shape.rowMajor_val_two, Shape.rowMajor_val_three]
    show b.val * 128 + l.val = (a.val * 1 + b.val) * 128 + l.val
    omega
  rw [addf_apply]
  congr 1
  · refine (shapeCast_apply _ _ (ix2 b l) (ix3 a b l) ?_).trans rfl
    rw [Shape.rowMajor_val_two, Shape.rowMajor_val_three]
    show (a.val * 1 + b.val) * 128 + l.val = b.val * 128 + l.val
    omega
  · rw [select_apply]
    have e75 : iota .tc S1x128 32 [1] iota_S1x128_d1_w32 (ix2 b l) = BitVec.ofNat 32 l.val :=
      (iota_single_apply _ _ _ _ _ _).trans rfl
    rw [cmpi, e75, broadcast_apply, broadcast_apply, broadcast_apply, select_lane_eq0 l.val l.isLt]
    by_cases hl : l.val = 0
    · rw [if_pos hl]
      show _ = ∑ r : Fin 4096, (if l.val = 0 then tileMax x0 x1 r else 0)
      simp only [if_pos hl]
      unfold extractAt
      refine (shapeCast_apply _ _ _ (ix1 (0 : Fin 1)) ?_).trans ?_
      · rw [Shape.rowMajor_val_one, Shape.rowMajor_val_two]
        rfl
      refine (Ideal.multiReduction_add_single _ _ _ _ _ _).trans ?_
      refine Finset.sum_congr rfl (fun (r : Fin 4096) _ => ?_)
      refine (shapeCast_apply _ _ _ (ix1 r) ?_).trans ?_
      · rw [Shape.rowMajor_val_one, Shape.rowMajor_val_two]
        show r.val = 0 * 4096 + r.val
        omega
      exact pay7_apply x0 x1 r
    · rw [if_neg hl]
      show Ideal.ofBits .f32 0x00000000#32 = ∑ r : Fin 4096, (if l.val = 0 then tileMax x0 x1 r else 0)
      simp only [if_neg hl]
      rw [Finset.sum_const_zero]
      exact Ideal.ofBits_zero_f32

/-- The two reset stores write zeros. -/
theorem pay1_apply (y : S1x1x128.Idx) : k0_pay1 (F := Ideal) y = 0 := by
  show Ideal.ofBits .f32 0x00000000#32 = 0
  exact Ideal.ofBits_zero_f32
theorem pay2_apply (y : S1x1x128.Idx) : k0_pay2 (F := Ideal) y = 0 := by
  show Ideal.ofBits .f32 0x00000000#32 = 0
  exact Ideal.ofBits_zero_f32

end Cert.KernelIdeal.Val

end
-- ==== Proof.KPieces.lean ====
/-
  What each control case of the kernel body leaves in the two accumulator blocks, as the body's stored values: at a
  core's first tile the reset then the update (read back over the zeros just stored), at the others the update over
  what the tile before left.
-/
import proofs.«146943_j72954314490246_1_alg».proof.Proof.Gen.KernelIdeal.Frame
import Idealize.ShloMosaic.Lib.Pipeline.Value
import Idealize.ShloMosaic.Lib.Tactic

noncomputable section

open scoped BigOperators

namespace Cert.KernelIdeal.Val

open Idealize.ShloMosaic Idealize.ShloMosaic.TcCoe Idealize.SL.Sem
open Cert.KernelIdeal Cert.KernelIdeal.Gen

variable {F : FTy → Type} [FloatOps F]

/-- The all-zero offset of a rank-3 block, as the constant function. -/
theorem offsets_zero3 : (![0, 0, 0] : Fin 3 → Nat) = fun _ => 0 := funext fun a => by fin_cases a <;> rfl

/-- The all-zero offset of a rank-2 block, as the constant function. -/
theorem offsets_zero2 : (![0, 0] : Fin 2 → Nat) = fun _ => 0 := funext fun a => by fin_cases a <;> rfl

theorem outA2 (c : Dev nD) (i : grid0.Coords) (a2 : Memref sig .tc .vmem S4096x64x4 .f32) (h2 : a2.IsWhole) (a3 : Memref sig .tc .vmem S4096x4 .f32) (h3 : a3.IsWhole) (a4 : Memref sig .tc .vmem S1x1x128 .f32) (h4 : a4.IsWhole) (a5 : Memref sig .tc .vmem S1x1x128 .f32) (h5 : a5.IsWhole) (hc : cond0_0 i)
    (x0 : Vec F S4096x64x4 .f32) (x1 : Vec F S4096x4 .f32) :
    out0_A_2 c i a2 h2 a3 h3 a4 h4 a5 h5 hc x0 x1 = k0_pay8 (k0_pay4 x0 x1) (k0_pay5 x0 x1) k0_pay6 (k0_pay1 (F := F)) := by
  -- the block's contents are what the covering stores leave: the last store's payload
  unfold out0_A_2
  rw [View.read_writes_eq_canon _ _ _ (cover0_A_2 c i a2 h2 a3 h3 a4 h4 a5 h5 hc x0 x1)]
  unfold kernelRun0_A
  dsimp only
  sl_unfold_words
  -- the update is stored last over the whole block; its load reads the reset's zeros back
  rw [View.canon_cons_unit_zero (S := S1x1x128) offsets_zero3, View.readCov_unit_zero (S := S1x1x128) _ offsets_zero3]
  -- the two argument blocks are read whole, at zero offsets
  simp only [View.readAt_eq_ld, h2.read_unread, h3.read_unread, View.ld_unit_zero (S := S4096x64x4) offsets_zero3,
    View.ld_unit_zero (S := S4096x4) offsets_zero2]

theorem outA3 (c : Dev nD) (i : grid0.Coords) (a2 : Memref sig .tc .vmem S4096x64x4 .f32) (h2 : a2.IsWhole) (a3 : Memref sig .tc .vmem S4096x4 .f32) (h3 : a3.IsWhole) (a4 : Memref sig .tc .vmem S1x1x128 .f32) (h4 : a4.IsWhole) (a5 : Memref sig .tc .vmem S1x1x128 .f32) (h5 : a5.IsWhole) (hc : cond0_0 i)
    (x0 : Vec F S4096x64x4 .f32) (x1 : Vec F S4096x4 .f32) :
    out0_A_3 c i a2 h2 a3 h3 a4 h4 a5 h5 hc x0 x1 = k0_pay9 (k0_pay4 x0 x1) (k0_pay5 x0 x1) k0_pay6 (k0_pay2 (F := F)) := by
  -- the block's contents are what the covering stores leave: the last store's payload
  unfold out0_A_3
  rw [View.read_writes_eq_canon _ _ _ (cover0_A_3 c i a2 h2 a3 h3 a4 h4 a5 h5 hc x0 x1)]
  unfold kernelRun0_A
  dsimp only
  sl_unfold_words
  -- the update is stored last over the whole block; its load reads the reset's zeros back
  rw [View.canon_cons_unit_zero (S := S1x1x128) offsets_zero3, View.readCov_unit_zero (S := S1x1x128) _ offsets_zero3]
  -- the two argument blocks are read whole, at zero offsets
  simp only [View.readAt_eq_ld, h2.read_unread, h3.read_unread, View.ld_unit_zero (S := S4096x64x4) offsets_zero3,
    View.ld_unit_zero (S := S4096x4) offsets_zero2]

theorem outB2 (c : Dev nD) (i : grid0.Coords) (a2 : Memref sig .tc .vmem S4096x64x4 .f32) (h2 : a2.IsWhole) (a3 : Memref sig .tc .vmem S4096x4 .f32) (h3 : a3.IsWhole) (a4 : Memref sig .tc .vmem S1x1x128 .f32) (h4 : a4.IsWhole) (a5 : Memref sig .tc .vmem S1x1x128 .f32) (h5 : a5.IsWhole) (hc : ¬cond0_0 i)
    (x0 : Vec F S4096x64x4 .f32) (x1 : Vec F S4096x4 .f32) (xo2 xo3 : Vec F S1x1x128 .f32) :
    out0_B_2 c i a2 h2 a3 h3 a4 h4 a5 h5 hc x0 x1 xo2 xo3 = k0_pay8 (k0_pay4 x0 x1) (k0_pay5 x0 x1) k0_pay6 xo2 := by
  -- the block's contents are what the one covering store leaves: its payload
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero (S := S1x1x128) offsets_zero3]
  -- the argument blocks and the running accumulator are read whole, at zero offsets
  simp only [View.readAt_eq_ld, h2.read_unread, h3.read_unread, h4.read_unread, View.ld_unit_zero (S := S4096x64x4) offsets_zero3,
    View.ld_unit_zero (S := S4096x4) offsets_zero2, View.ld_unit_zero (S := S1x1x128) offsets_zero3]

theorem outB3 (c : Dev nD) (i : grid0.Coords) (a2 : Memref sig .tc .vmem S4096x64x4 .f32) (h2 : a2.IsWhole) (a3 : Memref sig .tc .vmem S4096x4 .f32) (h3 : a3.IsWhole) (a4 : Memref sig .tc .vmem S1x1x128 .f32) (h4 : a4.IsWhole) (a5 : Memref sig .tc .vmem S1x1x128 .f32) (h5 : a5.IsWhole) (hc : ¬cond0_0 i)
    (x0 : Vec F S4096x64x4 .f32) (x1 : Vec F S4096x4 .f32) (xo2 xo3 : Vec F S1x1x128 .f32) :
    out0_B_3 c i a2 h2 a3 h3 a4 h4 a5 h5 hc x0 x1 xo2 xo3 = k0_pay9 (k0_pay4 x0 x1) (k0_pay5 x0 x1) k0_pay6 xo3 := by
  -- the block's contents are what the one covering store leaves: its payload
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero (S := S1x1x128) offsets_zero3]
  -- the argument blocks and the running accumulator are read whole, at zero offsets
  simp only [View.readAt_eq_ld, h2.read_unread, h3.read_unread, h5.read_unread, View.ld_unit_zero (S := S4096x64x4) offsets_zero3,
    View.ld_unit_zero (S := S4096x4) offsets_zero2, View.ld_unit_zero (S := S1x1x128) offsets_zero3]

end Cert.KernelIdeal.Val

end
-- ==== Proof.KAccum.lean ====
/-
  The accumulation over the grid. Grid point t = 32·c + k is core c's k-th tile: rows 4096·t … 4096·t + 4095 of the
  two arrays. After it, lane l of the histogram block holds the number of rows among the first (k+1)·4096 rows of
  core c's half whose bin is l, and the sum block holds, in lane 0, the sum of those rows' maxima.
-/
import proofs.«146943_j72954314490246_1_alg».proof.Proof.Gen.KernelIdeal.Frame
import proofs.«146943_j72954314490246_1_alg».proof.Proof.KDefs
import proofs.«146943_j72954314490246_1_alg».proof.Proof.KPay
import proofs.«146943_j72954314490246_1_alg».proof.Proof.KPieces

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.IouHist

variable (m : (ℓ : Loc nD τ sig) → Buf (Elt Ideal) ℓ)

/-- At grid point `t` the block of boxes read is block (t, 0, 0). -/
theorem win0_index : ∀ t : Fin grid0.N, win0_0.index t (0 : Fin 3) = t.val ∧ win0_0.index t (1 : Fin 3) = 0 ∧ win0_0.index t (2 : Fin 3) = 0 := by decide +kernel

/-- At grid point `t` the block of ground truth read is block (t, 0). -/
theorem win1_index : ∀ t : Fin grid0.N, win0_1.index t (0 : Fin 2) = t.val ∧ win0_1.index t (1 : Fin 2) = 0 := by decide +kernel

/-- Entry (r, q, k) of grid point `t`'s block of boxes is entry (4096·t + r, q, k) of the boxes. -/
theorem iblk0_apply (c : Dev nD) (t : Fin cfg0.N) (r : Fin 4096) (q : Fin 64) (k : Fin 4) (n : Fin 262144)
    (hn : n.val = t.val * 4096 + r.val) :
    iblk m c 0 t (ix3 r q k) = Xof m c (ix3 n q k) := by
  have hi := win0_index t
  unfold iblk
  rw [View.read_apply]
  show V m c main_arg0 _ = m (c.tc.loc main_arg0) _
  unfold V
  congr 1
  funext a
  apply Fin.ext
  match a with
  | ⟨0, _⟩ => show win0_0.index t 0 * 4096 + 1 * r.val = n.val; rw [hi.1, hn]; omega
  | ⟨1, _⟩ => show win0_0.index t 1 * 64 + 1 * q.val = q.val; rw [hi.2.1]; omega
  | ⟨2, _⟩ => show win0_0.index t 2 * 4 + 1 * k.val = k.val; rw [hi.2.2]; omega

/-- Entry (r, k) of grid point `t`'s block of ground truth is entry (4096·t + r, k) of the ground truth. -/
theorem iblk1_apply (c : Dev nD) (t : Fin cfg0.N) (r : Fin 4096) (k : Fin 4) (n : Fin 262144)
    (hn : n.val = t.val * 4096 + r.val) :
    iblk m c 1 t (ix2 r k) = Gof m c (ix2 n k) := by
  have hi := win1_index t
  unfold iblk
  rw [View.read_apply]
  show V m c main_arg1 _ = m (c.tc.loc main_arg1) _
  unfold V
  congr 1
  funext a
  apply Fin.ext
  match a with
  | ⟨0, _⟩ => show win0_1.index t 0 * 4096 + 1 * r.val = n.val; rw [hi.1, hn]; omega
  | ⟨1, _⟩ => show win0_1.index t 1 * 4 + 1 * k.val = k.val; rw [hi.2]; omega

/-- Row `r` of grid point `t`'s two input blocks is row 4096·t + r of the arrays. -/
theorem tile_eq (c : Dev nD) (t : Fin cfg0.N) (r : Fin 4096) :
    tileMax (iblk m c 0 t) (iblk m c 1 t) r = mxN (Xof m c) (Gof m c) (t.val * 4096 + r.val) := by
  have hN : cfg0.N = 64 := N_0
  have ht := t.isLt
  have hr := r.isLt
  have hlt : t.val * 4096 + r.val < 262144 := by omega
  unfold mxN
  rw [dif_pos hlt]
  unfold mx
  show rowMax _ _ = rowMax _ _
  congr 1
  · funext q k
    exact iblk0_apply m c t r q k ⟨_, hlt⟩ rfl
  · funext k
    exact iblk1_apply m c t r k ⟨_, hlt⟩ rfl

/-- A core's first tile: the 4096 rows from 4096·n on are the first 4096 rows of core n / 32's half. -/
theorem first_tile (g : ℕ → EReal) (n : ℕ) (h0 : n % 32 = 0) :
    0 + ∑ r : Fin 4096, g (n * 4096 + r.val) = ∑ j ∈ Finset.range ((n % 32 + 1) * 4096), g (n / 32 * 131072 + j) := by
  rw [zero_add, Fin.sum_univ_eq_sum_range (fun j => g (n * 4096 + j)) 4096,
    show (n % 32 + 1) * 4096 = 4096 by omega]
  refine Finset.sum_congr rfl fun j _ => ?_
  congr 1
  omega

/-- A later tile of a core: the rows counted so far, then the 4096 rows from 4096·n on. -/
theorem next_tile (g : ℕ → EReal) (n : ℕ) (h0 : ¬n % 32 = 0) :
    ∑ j ∈ Finset.range (((n - 1) % 32 + 1) * 4096), g ((n - 1) / 32 * 131072 + j) + ∑ r : Fin 4096, g (n * 4096 + r.val)
      = ∑ j ∈ Finset.range ((n % 32 + 1) * 4096), g (n / 32 * 131072 + j) := by
  rw [Fin.sum_univ_eq_sum_range (fun j => g (n * 4096 + j)) 4096,
    show (n % 32 + 1) * 4096 = ((n - 1) % 32 + 1) * 4096 + 4096 by omega, Finset.sum_range_add,
    show (n - 1) / 32 = n / 32 by omega]
  congr 1
  refine Finset.sum_congr rfl fun j _ => ?_
  congr 1
  omega

/-- The histogram block after grid point `n`. -/
theorem outs_hist (c : Dev nD) (n : ℕ) (h : n < cfg0.N) (y : S1x1x128.Idx) :
    (outsAt0 m c n h).1 y
      = ∑ j ∈ Finset.range ((n % 32 + 1) * 4096), ind (mxN (Xof m c) (Gof m c) (n / 32 * 131072 + j)) (y 2).val := by
  induction n using Nat.strong_induction_on with
  | _ n ih =>
    by_cases h0 : n % 32 = 0
    · rw [outsAt0_A m c ⟨n, h⟩ h0]
      dsimp only
      rw [outA2, pay8_apply, pay1_apply]
      simp only [tile_eq]
      exact first_tile (fun j => ind (mxN (Xof m c) (Gof m c) j) (y 2).val) n h0
    · rw [outsAt0_B m c ⟨n, h⟩ h0]
      dsimp only
      rw [outB2, pay8_apply, ih (n - 1) (by omega)]
      simp only [tile_eq]
      exact next_tile (fun j => ind (mxN (Xof m c) (Gof m c) j) (y 2).val) n h0

/-- The sum block after grid point `n`. -/
theorem outs_sum (c : Dev nD) (n : ℕ) (h : n < cfg0.N) (y : S1x1x128.Idx) :
    (outsAt0 m c n h).2 y
      = ∑ j ∈ Finset.range ((n % 32 + 1) * 4096), (if (y 2).val = 0 then mxN (Xof m c) (Gof m c) (n / 32 * 131072 + j) else 0) := by
  induction n using Nat.strong_induction_on with
  | _ n ih =>
    by_cases h0 : n % 32 = 0
    · rw [outsAt0_A m c ⟨n, h⟩ h0]
      dsimp only
      rw [outA3, pay9_apply, pay2_apply]
      simp only [tile_eq]
      exact first_tile (fun j => if (y 2).val = 0 then mxN (Xof m c) (Gof m c) j else 0) n h0
    · rw [outsAt0_B m c ⟨n, h⟩ h0]
      dsimp only
      rw [outB3, pay9_apply, ih (n - 1) (by omega)]
      simp only [tile_eq]
      exact next_tile (fun j => if (y 2).val = 0 then mxN (Xof m c) (Gof m c) j else 0) n h0

end Cert.KernelIdeal.Val

end
-- ==== Proof.KFinal.lean ====
/-
  From the blocks to the arrays and through the host lines after the region: each accumulator block is written back
  once, after its core's last tile, so the two accumulator arrays hold the per-core totals; the run's two results are
  the host lines' functions of those arrays.
-/
import proofs.«146943_j72954314490246_1_alg».proof.Proof.Gen.KernelIdeal.Frame
import proofs.«146943_j72954314490246_1_alg».proof.Proof.KDefs
import proofs.«146943_j72954314490246_1_alg».proof.Proof.KAccum
import Idealize.ShloMosaic.Lib.Pipeline.Value
import Idealize.ShloMosaic.Lib.StableHlo.Run

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.IouHist

variable (m : (ℓ : Loc nD τ sig) → Buf (Elt Ideal) ℓ) (ρ : Dev nD → PrngReg)

/-- The accumulator windows' block index at a grid point: the core coordinate on the first axis, zero on the others. -/
theorem idx_acc : ∀ t : Fin cfg0.N, win0_2.index t (0 : Fin 3) = t.val / 32 ∧ win0_2.index t (1 : Fin 3) = 0
    ∧ win0_2.index t (2 : Fin 3) = 0 ∧ win0_3.index t (0 : Fin 3) = t.val / 32 ∧ win0_3.index t (1 : Fin 3) = 0
    ∧ win0_3.index t (2 : Fin 3) = 0 :=
  (by decide +kernel : ∀ t : Fin grid0.N, _)

set_option maxRecDepth 16384 in
/-- What a flushing point writes back of the histogram block is its block of the per-core totals. -/
theorem flushed_hist (c : Dev nD) (t : Fin cfg0.N) (hf : (cfg0.win 2).flush t = true) :
    (dats m 0 c).flushed 2 t = ((cfg0.win 2).blk t).view.read (Elt Ideal) (histArr (Xof m c) (Gof m c)) := by
  have h31 : t.val % 32 = 31 := (flush0_2 t).mp hf
  obtain ⟨e0, e1, e2, -, -, -⟩ := idx_acc t
  show (cfg0.win 2).cut (grid0.coords t) ((dats m 0 c).after 2 t) = _
  rw [after0_2]
  funext y
  refine (outs_hist m c t.val t.isLt _).trans ?_
  rw [View.read_apply]
  have hy0 : (y 0).val < 1 := (y 0).isLt
  have k0 : (((cfg0.win 2).blk t).view.emb y 0).val = t.val / 32 := by
    show win0_2.index t (0 : Fin 3) * 1 + 1 * (y 0).val = _
    omega
  have k2 : (((cfg0.win 2).blk t).view.emb y 2).val = (y 2).val := by
    show win0_2.index t (2 : Fin 3) * 128 + 1 * (y 2).val = _
    omega
  have hn : (t.val % 32 + 1) * 4096 = 131072 := by omega
  unfold histArr
  refine Eq.trans ?_ (cast_eq _ _).symm
  rw [k0, k2, hn]

set_option maxRecDepth 16384 in
/-- And of the sum block. -/
theorem flushed_sum (c : Dev nD) (t : Fin cfg0.N) (hf : (cfg0.win 3).flush t = true) :
    (dats m 0 c).flushed 3 t = ((cfg0.win 3).blk t).view.read (Elt Ideal) (sumArr (Xof m c) (Gof m c)) := by
  have h31 : t.val % 32 = 31 := (flush0_3 t).mp hf
  obtain ⟨-, -, -, e0, e1, e2⟩ := idx_acc t
  show (cfg0.win 3).cut (grid0.coords t) ((dats m 0 c).after 3 t) = _
  rw [after0_3]
  funext y
  refine (outs_sum m c t.val t.isLt _).trans ?_
  rw [View.read_apply]
  have hy0 : (y 0).val < 1 := (y 0).isLt
  have k0 : (((cfg0.win 3).blk t).view.emb y 0).val = t.val / 32 := by
    show win0_3.index t (0 : Fin 3) * 1 + 1 * (y 0).val = _
    omega
  have k2 : (((cfg0.win 3).blk t).view.emb y 2).val = (y 2).val := by
    show win0_3.index t (2 : Fin 3) * 128 + 1 * (y 2).val = _
    omega
  have hn : (t.val % 32 + 1) * 4096 = 131072 := by omega
  unfold sumArr
  refine Eq.trans ?_ (cast_eq _ _).symm
  rw [k0, k2, hn]

/-- An index of an accumulator array is in a point's block iff each coordinate is in the block's range on its axis. -/
theorem mem_blk_hist (t : Fin cfg0.N) (i : S2x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0_0).slice (win0_2.rect t)).set ↔ _
  rw [View.set_slice_whole, Rect.mem_set_unit]
  exact Iff.rfl

theorem mem_blk_sum (t : Fin cfg0.N) (i : S2x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0_1).slice (win0_3.rect t)).set ↔ _
  rw [View.set_slice_whole, Rect.mem_set_unit]
  exact Iff.rfl

/-- Core `k`'s last grid point. -/
abbrev lastOf (k : ℕ) (hk : k < 2) : Fin cfg0.N := ⟨k * 32 + 31, by rw [show cfg0.N = 64 from N_0]; omega⟩

/-- The histogram array after the run: the per-core totals. -/
theorem final_hist (c : Dev nD) : (dats m 0 c).arrAt 2 cfg0.N = histArr (Xof m c) (Gof m c) :=
  (dats m 0 c).arrAt_eq_of_cover 2 (histArr (Xof m c) (Gof m c)) (flushed_hist m c) fun i => by
    have h0 : (i 0).val < 2 := (i 0).isLt
    have h1 : (i 1).val < 1 := (i 1).isLt
    have h2 : (i 2).val < 128 := (i 2).isLt
    refine ⟨lastOf (i 0).val h0, (flush0_2 _).mpr (by show ((i 0).val * 32 + 31) % 32 = 31; omega), ?_⟩
    obtain ⟨e0, e1, e2, -, -, -⟩ := idx_acc (lastOf (i 0).val h0)
    have e0' : win0_2.index (lastOf (i 0).val h0) (0 : Fin 3) = (i 0).val := by
      rw [e0]; show ((i 0).val * 32 + 31) / 32 = _; omega
    rw [mem_blk_hist]
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 1 ≤ (i 1).val ∧ (i 1).val < win0_2.index _ (1 : Fin 3) * 1 + 1; omega
    | ⟨2, _⟩ => show win0_2.index _ (2 : Fin 3) * 128 ≤ (i 2).val ∧ (i 2).val < win0_2.index _ (2 : Fin 3) * 128 + 128; omega

/-- The sum array after the run: the per-core sums in lane 0. -/
theorem final_sum (c : Dev nD) : (dats m 0 c).arrAt 3 cfg0.N = sumArr (Xof m c) (Gof m c) :=
  (dats m 0 c).arrAt_eq_of_cover 3 (sumArr (Xof m c) (Gof m c)) (flushed_sum m c) fun i => by
    have h0 : (i 0).val < 2 := (i 0).isLt
    have h1 : (i 1).val < 1 := (i 1).isLt
    have h2 : (i 2).val < 128 := (i 2).isLt
    refine ⟨lastOf (i 0).val h0, (flush0_3 _).mpr (by show ((i 0).val * 32 + 31) % 32 = 31; omega), ?_⟩
    obtain ⟨-, -, -, e0, e1, e2⟩ := idx_acc (lastOf (i 0).val h0)
    have e0' : win0_3.index (lastOf (i 0).val h0) (0 : Fin 3) = (i 0).val := by
      rw [e0]; show ((i 0).val * 32 + 31) / 32 = _; omega
    rw [mem_blk_sum]
    intro a
    match a with
    | ⟨0, _⟩ => show win0_3.index _ (0 : Fin 3) * 1 ≤ (i 0).val ∧ (i 0).val < win0_3.index _ (0 : Fin 3) * 1 + 1; omega
    | ⟨1, _⟩ => show win0_3.index _ (1 : Fin 3) * 1 ≤ (i 1).val ∧ (i 1).val < win0_3.index _ (1 : Fin 3) * 1 + 1; omega
    | ⟨2, _⟩ => show win0_3.index _ (2 : Fin 3) * 128 ≤ (i 2).val ∧ (i 2).val < win0_3.index _ (2 : Fin 3) * 128 + 128; omega

/-- The histogram array as the host lines find it. -/
theorem tail_arr_hist (c : Dev nD) :
    Pipeline.withArrays (cfgs 0).spec c (V0 m c) (fun w => (dats m 0 c).arrAt w (cfgs 0).N) (Proc.devRef .tc main_v0_0)
      = histArr (Xof m c) (Gof m c) :=
  (Pipeline.withArrays_arr spec0 launch0.win.arr_inj c _ _ 2).trans (final_hist m c)

/-- The sum array as the host lines find it. -/
theorem tail_arr_sum (c : Dev nD) :
    Pipeline.withArrays (cfgs 0).spec c (V0 m c) (fun w => (dats m 0 c).arrAt w (cfgs 0).N) (Proc.devRef .tc main_v0_1)
      = sumArr (Xof m c) (Gof m c) :=
  (Pipeline.withArrays_arr spec0 launch0.win.arr_inj c _ _ 3).trans (final_sum m c)

/-- The first result after the host lines: their function of the histogram array. -/
theorem tail_hist (c : Dev nD) :
    Pipeline.afterTail₀ cfgs (dats m) 0 (V0 m) [hostOps1] c main_v4 = tailHist (histArr (Xof m c) (Gof m c)) := by
  unfold Pipeline.afterTail₀
  show StableHlo.after hostOps1 _ (Proc.devRef .tc main_v4) = _
  after_results
  rw [tail_arr_hist]
  rfl

/-- The second result after the host lines: their function of the sum array. -/
theorem tail_mean (c : Dev nD) :
    Pipeline.afterTail₀ cfgs (dats m) 0 (V0 m) [hostOps1] c main_v6 = tailMean (sumArr (Xof m c) (Gof m c)) := by
  unfold Pipeline.afterTail₀
  show StableHlo.after hostOps1 _ (Proc.devRef .tc main_v6) = _
  after_results
  rw [tail_arr_sum]
  rfl
/-- The run of the idealized kernel program, read: its two results at the host lines' functions of the per-core
    totals, the arguments unchanged. -/
theorem run : θ_run defs (onTc (τ := τ) (main (F := Ideal))) ⟨m, fun _ => 0, ρ⟩ fun r => ∀ c : Dev nD,
      r.2.mem ((c.tc : Thread nD τ).loc main_v4) = tailHist (histArr (Xof m c) (Gof m c))
      ∧ r.2.mem ((c.tc : Thread nD τ).loc main_v6) = tailMean (sumArr (Xof m c) (Gof m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_, ?_⟩) (run_main m ρ)
  · exact ((h c).2 main_v4 (Pipeline.mem_restRefs_of main_v4 rfl (by decide))).trans (tail_hist m c)
  · exact ((h c).2 main_v6 (Pipeline.mem_restRefs_of main_v6 rfl (by decide))).trans (tail_mean m c)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Val

end
-- ==== Proof.KAlgebra.lean ====
/-
  The host lines after the region, applied to the per-core totals, give the specification's two results: the two
  cores' halves of the rows are all the rows; a count below 2³¹ converts exactly to its 32-bit word; the sum block's
  lanes other than lane 0 are zeros.
-/
import proofs.«146943_j72954314490246_1_alg».proof.Proof.KDefs
import proofs.«146943_j72954314490246_1_alg».proof.Proof.SpecFacts
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.IouHist

/-- The second half of a range of 2·n, shifted, joins the first half. -/
theorem sum_two_halves (f : ℕ → EReal) :
    ∑ j ∈ Finset.range 131072, f (0 * 131072 + j) + ∑ j ∈ Finset.range 131072, f (1 * 131072 + j)
      = ∑ j ∈ Finset.range 262144, f j := by
  have h := Finset.sum_range_add f 131072 131072
  simp only [zero_mul, zero_add, one_mul]
  exact h.symm

/-- Lane b of the fifty kept, as one of the 128 lanes of a block. -/
abbrev lane (b : S50.Idx) : Fin 128 := ⟨(b 0).val, by have h : (b 0).val < 50 := (b 0).isLt; omega⟩

/-- The host lines on the histogram block, read at lane b: the converted sum of the two cores' lanes b. -/
theorem tailHist_apply (A : Vec Ideal S2x1x128 .f32) (b : S50.Idx) :
    tailHist A b = Ideal.fptosi 32 (A (ix3 (0 : Fin 2) (0 : Fin 1) (lane b)) + A (ix3 (1 : Fin 2) (0 : Fin 1) (lane b))) := by
  unfold tailHist
  show Ideal.fptosi 32 _ = Ideal.fptosi 32 _
  refine congrArg (Ideal.fptosi 32) ?_
  generalize hy : Host.reduceAdd A (constant (F := Ideal) S_ .f32 0x00000000#32) Facts₀.reducesTo_S2x1x128_S1x128_d0 Facts₀.h_S_ = y
  refine (shapeCast_apply _ Facts₀.shapeCasts_S1x50_S50 b (ix2 (0 : Fin 1) (b 0)) ?_).trans ?_
  · rewrite [Shape.rowMajor_val_two, Shape.rowMajor_val_one]
    show (0 : ℕ) * 50 + (b 0).val = (b 0).val
    omega
  refine (extractStridedSlice_apply ![0, 0] y Facts₀.slices_S1x128_S1x50_0_0 (ix2 (0 : Fin 1) (b 0)) (ix2 (0 : Fin 1) (lane b)) (fun a => match a with
    | ⟨0, _⟩ => by show (0 : ℕ) = 0 + 0; omega
    | ⟨1, _⟩ => by show (b 0).val = 0 + (b 0).val; omega)).trans ?_
  subst hy
  simp only [Host.reduceAdd, Ideal.hostReduceAdd_def]
  refine (Ideal.hostReduceAdd_single Facts₀.reducesTo_S2x1x128_S1x128_d0 (by decide) A _ _).trans ?_
  show Ideal.ofBits .f32 0x00000000#32 + ∑ k : Fin 2, A _ = _
  rw [Ideal.ofBits_zero_f32, zero_add, Fin.sum_univ_two]
  have e : ∀ k : Fin 2, (by decide : Shape.Reduces S2x1x128 [0] S1x128).lift (ix2 (0 : Fin 1) (lane b)) k = ix3 k (0 : Fin 1) (lane b) := by
    intro k; funext a; match a with | ⟨0, _⟩ => rfl | ⟨1, _⟩ => rfl | ⟨2, _⟩ => rfl
  exact congrArg₂ (· + ·) (congrArg A (e 0)) (congrArg A (e 1))

theorem tailHist_eq (X : SX.Idx → EReal) (G : SG.Idx → EReal) : tailHist (histArr X G) = histSpec X G := by
  funext b
  rw [tailHist_apply]
  show Ideal.fptosi 32 (∑ j ∈ Finset.range 131072, ind (mxN X G (0 * 131072 + j)) (b 0).val
      + ∑ j ∈ Finset.range 131072, ind (mxN X G (1 * 131072 + j)) (b 0).val) = _
  rw [sum_two_halves (fun j => ind (mxN X G j) (b 0).val), sum_ind (Finset.range 262144) (mxN X G) (b 0).val]
  rw [fptosi_natCast _ (lt_of_le_of_lt (Finset.card_filter_le _ _) (by rw [Finset.card_range]; norm_num))]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Lane 0 of a core's sum block is the sum of that core's row values. -/
theorem sumArr_lane_zero (X : SX.Idx → EReal) (G : SG.Idx → EReal) (a : Fin 2) :
    sumArr X G (ix3 a (0 : Fin 1) (0 : Fin 128)) = ∑ j ∈ Finset.range 131072, mxN X G (a.val * 131072 + j) :=
  Finset.sum_congr rfl fun j _ => if_pos rfl

/-- Every other lane of a core's sum block is a sum of zeros. -/
theorem sumArr_lane_succ (X : SX.Idx → EReal) (G : SG.Idx → EReal) (a : Fin 2) (c : Fin 127) :
    sumArr X G (ix3 a (0 : Fin 1) c.succ) = 0 :=
  Finset.sum_eq_zero fun j _ => if_neg (Nat.succ_ne_zero c.val)

/-- So a core's whole sum block sums to the sum of that core's row values. -/
theorem sum_sumArr_core (X : SX.Idx → EReal) (G : SG.Idx → EReal) (a : Fin 2) :
    ∑ b : Fin 1, ∑ c : Fin 128, sumArr X G (ix3 a b c) = ∑ j ∈ Finset.range 131072, mxN X G (a.val * 131072 + j) := by
  rw [Fin.sum_univ_one, Fin.sum_univ_succ, sumArr_lane_zero, Finset.sum_eq_zero fun c _ => sumArr_lane_succ X G a c, add_zero]

/-- The whole sum array sums to the sum of all the row values. -/
theorem sum_sumArr (X : SX.Idx → EReal) (G : SG.Idx → EReal) :
    ∑ i : SA.Idx, sumArr X G i = ∑ j ∈ Finset.range 262144, mxN X G j := by
  rw [sum_idx3, Fin.sum_univ_two, sum_sumArr_core, sum_sumArr_core]
  exact sum_two_halves (mxN X G)

theorem tailMean_eq (X : SX.Idx → EReal) (G : SG.Idx → EReal) : tailMean (sumArr X G) = meanSpec X G := by
  funext i
  unfold tailMean
  show Ideal.div _ cnt = Ideal.div _ cnt
  refine congrArg (fun z => Ideal.div z cnt) ?_
  simp only [Host.reduceAdd, Ideal.hostReduceAdd_def]
  refine (Ideal.hostReduceAdd_total Facts₀.reducesTo_S2x1x128_S_d0_1_2 (fun b => b.elim0) _ _ i).trans ?_
  show Ideal.ofBits .f32 0x00000000#32 + ∑ i : SA.Idx, sumArr X G i = _
  rw [Ideal.ofBits_zero_f32, zero_add]
  exact sum_sumArr X G

end Cert.KernelIdeal.Val

end
-- ==== Proof.RRead44.lean ====
/-
  The reference program's stages up to the row maxima, read at a row: row n's maximum is the specification's.
-/
import proofs.«146943_j72954314490246_1_alg».proof.Proof.Gen.ReferenceIdeal.Read
import proofs.«146943_j72954314490246_1_alg».proof.Proof.Spec
import proofs.«146943_j72954314490246_1_alg».proof.Proof.SpecFacts
import Idealize.ShloMosaic.Lib.Pipeline.Value
import Idealize.ShloMosaic.Lib.ValueLayout
import Idealize.ShloMosaic.PureOps.Ideal.Laws

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read Cert.IouHist

/-! ## The proposal box's four coordinates, read at (n, q) -/

/-- A proposal coordinate sliced off the last axis at offset 2 and reshaped to [262144, 64] is X (n, q, 2). -/
theorem box_x2 (X : SX.Idx → EReal) (n : Fin 262144) (q : Fin 64) :
    val_main_v2 (F := Ideal) X (ix2 n q) = X (ix3 n q 2) := by
  have hq := q.isLt
  rw [val_main_v2_apply, val_main_v1_apply]
  refine congrArg X (funext fun a => Fin.ext ?_)
  match a with
  | ⟨0, _⟩ => show (n.val * 64 + q.val) / 64 = n.val; omega
  | ⟨1, _⟩ => show (n.val * 64 + q.val) / 1 % 64 = q.val; omega
  | ⟨2, _⟩ => rfl

theorem box_x0 (X : SX.Idx → EReal) (n : Fin 262144) (q : Fin 64) :
    val_main_v4 (F := Ideal) X (ix2 n q) = X (ix3 n q 0) := by
  have hq := q.isLt
  rw [val_main_v4_apply, val_main_v3_apply]
  refine congrArg X (funext fun a => Fin.ext ?_)
  match a with
  | ⟨0, _⟩ => show (n.val * 64 + q.val) / 64 = n.val; omega
  | ⟨1, _⟩ => show (n.val * 64 + q.val) / 1 % 64 = q.val; omega
  | ⟨2, _⟩ => rfl

theorem box_x3 (X : SX.Idx → EReal) (n : Fin 262144) (q : Fin 64) :
    val_main_v7 (F := Ideal) X (ix2 n q) = X (ix3 n q 3) := by
  have hq := q.isLt
  rw [val_main_v7_apply, val_main_v6_apply]
  refine congrArg X (funext fun a => Fin.ext ?_)
  match a with
  | ⟨0, _⟩ => show (n.val * 64 + q.val) / 64 = n.val; omega
  | ⟨1, _⟩ => show (n.val * 64 + q.val) / 1 % 64 = q.val; omega
  | ⟨2, _⟩ => rfl

theorem box_x1 (X : SX.Idx → EReal) (n : Fin 262144) (q : Fin 64) :
    val_main_v9 (F := Ideal) X (ix2 n q) = X (ix3 n q 1) := by
  have hq := q.isLt
  rw [val_main_v9_apply, val_main_v8_apply]
  refine congrArg X (funext fun a => Fin.ext ?_)
  match a with
  | ⟨0, _⟩ => show (n.val * 64 + q.val) / 64 = n.val; omega
  | ⟨1, _⟩ => show (n.val * 64 + q.val) / 1 % 64 = q.val; omega
  | ⟨2, _⟩ => rfl

/-- The proposal box's area at (n, q). -/
theorem box_area (X : SX.Idx → EReal) (n : Fin 262144) (q : Fin 64) :
    val_main_v11 (F := Ideal) X (ix2 n q)
      = (X (ix3 n q 2) - X (ix3 n q 0)) * (X (ix3 n q 3) - X (ix3 n q 1)) := by
  rw [val_main_v11_apply, val_main_v5_apply, val_main_v10_apply, box_x2, box_x0, box_x3, box_x1]
  rfl

/-! ## The ground-truth box's four coordinates, read at (n, q) -/

/-- The ground-truth area's factors: a coordinate of the [262144, 1, 4] broadcast sliced at offset 2, reshaped to a
    column and broadcast along the 64 proposals, is G (n, 2). -/
theorem gt_x2 (G : SG.Idx → EReal) (n : Fin 262144) (q : Fin 64) :
    val_main_v13 (F := Ideal) G (idx_main_v38 (ix2 n q)) = G (ix2 n 2) := by
  rw [val_main_v13_apply, val_main_v12_apply, val_main_v0_apply]
  refine congrArg G (funext fun a => Fin.ext ?_)
  match a with
  | ⟨0, _⟩ => show (n.val * 1 + 0) / 1 = n.val; omega
  | ⟨1, _⟩ => rfl

theorem gt_x0 (G : SG.Idx → EReal) (n : Fin 262144) (q : Fin 64) :
    val_main_v15 (F := Ideal) G (idx_main_v38 (ix2 n q)) = G (ix2 n 0) := by
  rw [val_main_v15_apply, val_main_v14_apply, val_main_v0_apply]
  refine congrArg G (funext fun a => Fin.ext ?_)
  match a with
  | ⟨0, _⟩ => show (n.val * 1 + 0) / 1 = n.val; omega
  | ⟨1, _⟩ => rfl

theorem gt_x3 (G : SG.Idx → EReal) (n : Fin 262144) (q : Fin 64) :
    val_main_v18 (F := Ideal) G (idx_main_v38 (ix2 n q)) = G (ix2 n 3) := by
  rw [val_main_v18_apply, val_main_v17_apply, val_main_v0_apply]
  refine congrArg G (funext fun a => Fin.ext ?_)
  match a with
  | ⟨0, _⟩ => show (n.val * 1 + 0) / 1 = n.val; omega
  | ⟨1, _⟩ => rfl

theorem gt_x1 (G : SG.Idx → EReal) (n : Fin 262144) (q : Fin 64) :
    val_main_v20 (F := Ideal) G (idx_main_v38 (ix2 n q)) = G (ix2 n 1) := by
  rw [val_main_v20_apply, val_main_v19_apply, val_main_v0_apply]
  refine congrArg G (funext fun a => Fin.ext ?_)
  match a with
  | ⟨0, _⟩ => show (n.val * 1 + 0) / 1 = n.val; omega
  | ⟨1, _⟩ => rfl

/-- The ground-truth box's area, broadcast along the proposals, at (n, q). -/
theorem gt_area (G : SG.Idx → EReal) (n : Fin 262144) (q : Fin 64) :
    val_main_v38 (F := Ideal) G (ix2 n q)
      = (G (ix2 n 2) - G (ix2 n 0)) * (G (ix2 n 3) - G (ix2 n 1)) := by
  rw [val_main_v38_apply, val_main_v22_apply, val_main_v16_apply, val_main_v21_apply, gt_x2, gt_x0, gt_x3, gt_x1]
  rfl

/-! ## The clipped side lengths of the intersection -/

/-- The lower corners' maximum at (n, q, c), c = 0, 1. -/
theorem lower_max (X : SX.Idx → EReal) (G : SG.Idx → EReal) (n : Fin 262144) (q : Fin 64) (c : Fin 2) :
    val_main_v26 (F := Ideal) X G (ix3 n q c)
      = max (X (ix3 n q ⟨c.val, by omega⟩)) (G (ix2 n ⟨c.val, by omega⟩)) := by
  rw [val_main_v26_apply, val_main_v23_apply, val_main_v25_apply, val_main_v24_apply, val_main_v0_apply]
  have e1 : idx_main_v23 (ix3 n q c) = ix3 n q (⟨c.val, by omega⟩ : Fin 4) :=
    funext fun a => Fin.ext (by match a with | ⟨0, _⟩ => rfl | ⟨1, _⟩ => rfl | ⟨2, _⟩ => rfl)
  have e2 : idx_main_v0 (idx_main_v24 (idx_main_v25 (ix3 n q c))) = ix2 n (⟨c.val, by omega⟩ : Fin 4) :=
    funext fun a => Fin.ext (by match a with | ⟨0, _⟩ => rfl | ⟨1, _⟩ => rfl)
  rw [e1, e2]
  rfl

/-- The upper corners' minimum at (n, q, c), c = 0, 1. -/
theorem upper_min (X : SX.Idx → EReal) (G : SG.Idx → EReal) (n : Fin 262144) (q : Fin 64) (c : Fin 2) :
    val_main_v30 (F := Ideal) X G (ix3 n q c)
      = min (X (ix3 n q ⟨2 + c.val, by omega⟩)) (G (ix2 n ⟨2 + c.val, by omega⟩)) := by
  rw [val_main_v30_apply, val_main_v27_apply, val_main_v29_apply, val_main_v28_apply, val_main_v0_apply]
  have e1 : idx_main_v27 (ix3 n q c) = ix3 n q (⟨2 + c.val, by omega⟩ : Fin 4) :=
    funext fun a => Fin.ext (by match a with | ⟨0, _⟩ => rfl | ⟨1, _⟩ => rfl | ⟨2, _⟩ => rfl)
  have e2 : idx_main_v0 (idx_main_v28 (idx_main_v29 (ix3 n q c))) = ix2 n (⟨2 + c.val, by omega⟩ : Fin 4) :=
    funext fun a => Fin.ext (by match a with | ⟨0, _⟩ => rfl | ⟨1, _⟩ => rfl)
  rw [e1, e2]
  rfl

/-- The clipped side length at (n, q, c). -/
theorem side_clip (X : SX.Idx → EReal) (G : SG.Idx → EReal) (n : Fin 262144) (q : Fin 64) (c : Fin 2) :
    val_main_v32 (F := Ideal) X G (ix3 n q c)
      = max 0 (min (X (ix3 n q ⟨2 + c.val, by omega⟩)) (G (ix2 n ⟨2 + c.val, by omega⟩))
                - max (X (ix3 n q ⟨c.val, by omega⟩)) (G (ix2 n ⟨c.val, by omega⟩))) := by
  rw [val_main_v32_apply, val_main_call0_v1_apply, val_main_call0_v0_apply, val_main_cst_apply, val_main_v31_apply,
    upper_min, lower_max]
  show max (Ideal.ofBits .f32 0x00000000#32) _ = _
  rw [Ideal.ofBits_zero_f32]
  rfl

/-- The first clipped side, sliced and reshaped to [262144, 64]. -/
theorem side0 (X : SX.Idx → EReal) (G : SG.Idx → EReal) (n : Fin 262144) (q : Fin 64) :
    val_main_v34 (F := Ideal) X G (ix2 n q)
      = max 0 (min (X (ix3 n q 2)) (G (ix2 n 2)) - max (X (ix3 n q 0)) (G (ix2 n 0))) := by
  have hq := q.isLt
  rw [val_main_v34_apply, val_main_v33_apply]
  have e : idx_main_v33 (idx_main_v34 (ix2 n q)) = ix3 n q (0 : Fin 2) := by
    refine funext fun a => Fin.ext ?_
    match a with
    | ⟨0, _⟩ => show (n.val * 64 + q.val) / 64 = n.val; omega
    | ⟨1, _⟩ => show (n.val * 64 + q.val) / 1 % 64 = q.val; omega
    | ⟨2, _⟩ => rfl
  rw [e, side_clip]
  rfl

/-- The second clipped side, sliced and reshaped to [262144, 64]. -/
theorem side1 (X : SX.Idx → EReal) (G : SG.Idx → EReal) (n : Fin 262144) (q : Fin 64) :
    val_main_v36 (F := Ideal) X G (ix2 n q)
      = max 0 (min (X (ix3 n q 3)) (G (ix2 n 3)) - max (X (ix3 n q 1)) (G (ix2 n 1))) := by
  have hq := q.isLt
  rw [val_main_v36_apply, val_main_v35_apply]
  have e : idx_main_v35 (idx_main_v36 (ix2 n q)) = ix3 n q (1 : Fin 2) := by
    refine funext fun a => Fin.ext ?_
    match a with
    | ⟨0, _⟩ => show (n.val * 64 + q.val) / 64 = n.val; omega
    | ⟨1, _⟩ => show (n.val * 64 + q.val) / 1 % 64 = q.val; omega
    | ⟨2, _⟩ => rfl
  rw [e, side_clip]
  rfl

/-- The intersection's area at (n, q) is the specification's overlap. -/
theorem overlap_at (X : SX.Idx → EReal) (G : SG.Idx → EReal) (n : Fin 262144) (q : Fin 64) :
    val_main_v37 (F := Ideal) X G (ix2 n q) = overlap (fun k => X (ix3 n q k)) (fun k => G (ix2 n k)) := by
  rw [val_main_v37_apply, side0, side1]
  rfl

/-- The quotient at (n, q) is the specification's intersection over union. -/
theorem iou_at (X : SX.Idx → EReal) (G : SG.Idx → EReal) (n : Fin 262144) (q : Fin 64) :
    val_main_v43 (F := Ideal) X G (ix2 n q) = iou (fun k => X (ix3 n q k)) (fun k => G (ix2 n k)) := by
  rw [val_main_v43_apply, val_main_v42_apply, val_main_v41_apply, val_main_cst_0_apply, val_main_v40_apply,
    val_main_v39_apply, overlap_at, box_area, gt_area]
  rfl

/-! ## The row maximum -/

/-- Row n of the reduced index with proposal k put back on the dropped axis is (n, k). -/
theorem lift_row (h : S262144x64.Reduces [1] S262144) (n : Fin 262144) (k : Fin (S262144x64.size 1)) :
    h.lift (ix1 n) k = ix2 n (⟨k.val, k.isLt⟩ : Fin 64) := by
  funext c
  apply Fin.ext
  match c with
  | ⟨0, _⟩ => rfl
  | ⟨1, _⟩ => rfl

theorem v44_apply (X : SX.Idx → EReal) (G : SG.Idx → EReal) (n : Fin 262144) :
    val_main_v44 (F := Ideal) X G (ix1 n) = mx X G n := by
  have h : S262144x64.Reduces [1] S262144 := by decide
  unfold val_main_v44
  rw [Host.reduce_eq_fold_single FloatOps.maximumf _ _ reducesTo_S262144x64_S262144_d1 h h_S_]
  have hf : (val_main_v43 (F := Ideal) X G ∘ h.lift (ix1 n))
      = fun q : Fin 64 => iou (fun k => X (ix3 n q k)) (fun k => G (ix2 n k)) :=
    funext fun k => by
      show val_main_v43 (F := Ideal) X G (h.lift (ix1 n) k) = _
      rw [lift_row h n k]
      exact iou_at X G n _
  rw [hf]
  show Finset.fold max (Ideal.ofBits .f32 0xFF800000#32) _ Finset.univ = _
  rw [ofBits_neg_inf]
  rfl

end Cert.ReferenceIdeal.RefVal

end
-- ==== Proof.RRead.lean ====
/-
  The reference program's stages after the row maxima: the index it scatters to is the row's bin (the clip at zero and the wrap of a negative index leave a bin in 0 … 49 as it is).
-/
import proofs.«146943_j72954314490246_1_alg».proof.Proof.Gen.ReferenceIdeal.Read
import proofs.«146943_j72954314490246_1_alg».proof.Proof.Spec
import proofs.«146943_j72954314490246_1_alg».proof.Proof.SpecFacts
import proofs.«146943_j72954314490246_1_alg».proof.Proof.RRead44
import Idealize.ShloMosaic.Lib.Pipeline.Value
import Idealize.ShloMosaic.Lib.ValueLayout
import Idealize.ShloMosaic.PureOps.Ideal.Laws

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read Cert.IouHist

/-- The floor of the row maximum over the bin width, clamped to a word and capped at 49, is the row's bin. -/
theorem v50_apply (X : SX.Idx → EReal) (G : SG.Idx → EReal) (n : Fin 262144) :
    val_main_v50 (F := Ideal) X G (ix1 n) = binOf (mx X G n) := by
  rw [val_main_v50_apply, val_main_v48_apply, val_main_v47_apply, val_main_v46_apply, val_main_v49_apply,
    val_main_c_apply, val_main_v45_apply, val_main_cst_2_apply, v44_apply]
  rfl

/-- A word that is not negative is unchanged by the clip at zero. -/
theorem maxsi_zero_of_not_slt (b : BitVec 32) (h : b.slt 0#32 = false) : IntOp.maxsi 0#32 b = b := by
  unfold IntOp.maxsi
  rw [h]
  rfl

/-- A word that is not negative is unchanged by the wrap of negative indices. -/
theorem select_wrap_of_not_slt (b : BitVec 32) (h : b.slt 0#32 = false) :
    Scalar.select (IntOp.cmpi .slt b 0#32) (IntOp.addi b 50#32) b = b := by
  unfold IntOp.cmpi Scalar.select
  simp only [h]
  rfl

/-- The sum of the row maxima over the rank-1 indices is the sum over the row numbers. -/
theorem sum_v44_eq (X : SX.Idx → EReal) (G : SG.Idx → EReal) :
    ∑ j : S262144.Idx, val_main_v44 (F := Ideal) X G j = ∑ j ∈ Finset.range 262144, mxN X G j := by
  rw [← Fin.sum_univ_eq_sum_range (fun j => mxN X G j) 262144]
  refine Fintype.sum_equiv ⟨fun j => j 0, fun a => ix1 a, fun j => (eq_ix1 j).symm, fun a => rfl⟩ _ _ (fun j => ?_)
  show val_main_v44 (F := Ideal) X G j = mxN X G (j 0).val
  have key : ∀ a : Fin 262144, mx X G a = mxN X G a.val := by
    intro a
    unfold mxN
    rw [dif_pos a.isLt]
  exact ((congrArg (val_main_v44 (F := Ideal) X G) (eq_ix1 j)).trans (v44_apply X G (j 0))).trans (key (j 0))

theorem v57_apply (X : SX.Idx → EReal) (G : SG.Idx → EReal) (n : Fin 262144) :
    val_main_v57 (F := Ideal) X G (ix1 n) = binOf (mx X G n) := by
  have hb : (binOf (mx X G n)).slt 0#32 = false := binOf_not_slt (rowMax_nonneg _ _)
  have h52 : val_main_v52 (F := Ideal) X G (ix1 n) = binOf (mx X G n) := by
    rw [val_main_v52_apply, val_main_call1_v1_apply, val_main_call1_v0_apply, val_main_c_4_apply, v50_apply]
    exact maxsi_zero_of_not_slt _ hb
  rw [val_main_v57_apply, val_main_v54_apply, val_main_v56_apply, h52, val_main_v53_apply, val_main_c_5_apply,
    val_main_v55_apply, val_main_c_6_apply]
  exact select_wrap_of_not_slt _ hb

/-- The mean: the host's sum of the row maxima from zero, over the row count. -/
theorem v62_eq (X : SX.Idx → EReal) (G : SG.Idx → EReal) : val_main_v62 (F := Ideal) X G = meanSpec X G := by
  funext i
  rw [val_main_v62_apply, val_main_v61_apply, val_main_cst_8_apply, val_main_cst_9_apply, sum_v44_eq]
  show Ideal.div (Ideal.ofBits .f32 0x00000000#32 + _) _ = _
  rw [Ideal.ofBits_zero_f32, zero_add]
  rfl

end Cert.ReferenceIdeal.RefVal

end
-- ==== Proof.RScatter.lean ====
/-
  The reference's histogram: a scatter that adds one at each row's bin into fifty zeros leaves, in each bin, the
  number of rows whose bin it is.
-/
import proofs.«146943_j72954314490246_1_alg».proof.Proof.Gen.ReferenceIdeal.Read
import proofs.«146943_j72954314490246_1_alg».proof.Proof.Spec
import proofs.«146943_j72954314490246_1_alg».proof.Proof.SpecFacts
import proofs.«146943_j72954314490246_1_alg».proof.Proof.RRead

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read Cert.IouHist

/-- A left fold whose step adds one at the place `g n` leaves, at `b`, the start value plus the number of `n` in
    the list with `g n = b`, as 32-bit words. -/
theorem foldl_addOne_count {ι κ : Type} [DecidableEq κ] (g : ι → κ)
    (step : (κ → BitVec 32) → ι → (κ → BitVec 32))
    (hstep : ∀ r n, step r n = fun i' => if i' = g n then r (g n) + 1#32 else r i')
    (l : List ι) (x : κ → BitVec 32) (b : κ) :
    l.foldl step x b = x b + BitVec.ofNat 32 (l.countP fun n => decide (g n = b)) := by
  induction l generalizing x with
  | nil => simp
  | cons n l ih =>
    rw [List.foldl_cons, ih, hstep, List.countP_cons]
    by_cases h : g n = b
    · subst h
      simp only [if_true, decide_true, BitVec.ofNat_add]
      rw [BitVec.add_assoc, BitVec.add_comm (1#32)]
    · have h' : ¬ b = g n := fun e => h e.symm
      simp only [if_neg h', h, decide_false, Bool.false_eq_true, if_false, Nat.add_zero]

/-- The scatter's window start on the one operand axis is the scatter index read signed at the update's row. -/
theorem start_eq (j : S262144.Idx) (idx : IVec S262144x1 32) (a : Fin 1) :
    scatter_S50_S262144x1_S262144_n_0_0_1.start j idx a = (idx (ix2 (j 0) 0)).toInt := by
  have ha : a = 0 := Subsingleton.elim _ _
  subst ha
  unfold ScatterDims.start
  rw [dif_pos (by decide)]
  refine congrArg (fun k => (idx k).toInt) ?_
  funext b
  match b with
  | ⟨0, _⟩ => rfl
  | ⟨1, _⟩ => rfl

/-- The operand's one axis is an inserted axis: the window coordinate on it is zero. -/
theorem window_eq (j : S262144.Idx) (a : Fin 1) :
    scatter_S50_S262144x1_S262144_n_0_0_1.window j a = 0 := by
  have ha : a = 0 := Subsingleton.elim _ _
  subst ha
  unfold ScatterDims.window
  rw [dif_neg (by decide)]

/-- Counting over the list of all `Fin N` by a predicate of the value is counting over `range N`. -/
theorem countP_finRange_eq_card (N : ℕ) (p : ℕ → Prop) [DecidablePred p] :
    (List.finRange N).countP (fun n => decide (p n.val)) = ((Finset.range N).filter p).card := by
  induction N with
  | zero => simp
  | succ N ih =>
    rw [List.finRange_succ_last, List.countP_append, List.countP_map, Finset.range_add_one, Finset.filter_insert]
    have hmap : (List.finRange N).countP ((fun n : Fin (N + 1) => decide (p n.val)) ∘ Fin.castSucc)
        = (List.finRange N).countP (fun n => decide (p n.val)) := rfl
    rw [hmap, ih]
    by_cases h : p N
    · rw [if_pos h, Finset.card_insert_of_notMem (by simp)]
      simp [h]
    · rw [if_neg h]
      simp [h]

/-- The place row `n`'s update lands: the row's bin, an index into the fifty bins. -/
def binIdx (X : SX.Idx → EReal) (G : SG.Idx → EReal) (n : Fin S262144.numel) : S50.Idx :=
  ix1 ⟨(binOf (mxN X G n.val)).toNat, binOf_toNat_lt (mxN_nonneg X G n.val)⟩

/-- The update index of position `n` in row-major order has `n` as its one coordinate. -/
theorem rowMajor_symm_val (n : Fin S262144.numel) : ((S262144.rowMajor.symm n) 0).val = n.val := by
  have h := Shape.rowMajor_val_one (S262144.rowMajor.symm n)
  rw [Equiv.apply_symm_apply] at h
  exact h.symm

/-- A position in the update array is below the row count. -/
theorem pos_lt (n : Fin S262144.numel) : n.val < 262144 :=
  lt_of_lt_of_eq n.isLt (Shape.numel_rank1 _)

/-- The scatter index read at row `n`'s update is that row's bin. -/
theorem v58_at (X : SX.Idx → EReal) (G : SG.Idx → EReal) (n : Fin S262144.numel) :
    val_main_v58 (F := Ideal) X G (ix2 ((S262144.rowMajor.symm n) 0) 0) = binOf (mxN X G n.val) := by
  have hn : n.val < 262144 := pos_lt n
  have hrow : (S262144.rowMajor.symm n) 0 = (⟨n.val, hn⟩ : Fin 262144) := Fin.ext (rowMajor_symm_val n)
  have hix : idx_main_v58 (ix2 ((S262144.rowMajor.symm n) 0) 0) = ix1 (⟨n.val, hn⟩ : Fin 262144) := by
    funext a
    match a with
    | ⟨0, _⟩ => exact hrow
  have hmx : mxN X G n.val = mx X G ⟨n.val, hn⟩ := by
    unfold mxN
    exact dif_pos hn
  rw [val_main_v58_apply, hix, v57_apply, hmx]

/-- Start plus window coordinate, on the one axis, is the row's bin as an integer. -/
theorem start_add_window (X : SX.Idx → EReal) (G : SG.Idx → EReal) (n : Fin S262144.numel) (a : Fin 1) :
    scatter_S50_S262144x1_S262144_n_0_0_1.start (S262144.rowMajor.symm n) (val_main_v58 (F := Ideal) X G) a
        + ((scatter_S50_S262144x1_S262144_n_0_0_1.window (S262144.rowMajor.symm n) a : ℕ) : ℤ)
      = (((binOf (mxN X G n.val)).toNat : ℕ) : ℤ) := by
  rw [start_eq, window_eq, v58_at, binOf_toInt (mxN_nonneg X G n.val)]
  exact Int.add_zero _

/-- For any scatter: an update whose start plus window coordinate is, on every axis, the coordinate of an operand
    index `i` is in bounds and lands at `i`. -/
theorem resultIdx?_eq_some_of {s si u : Shape} (d : ScatterDims s si u) {w : ℕ} (j : u.Idx) (idx : IVec si w) (i : s.Idx)
    (h : ∀ a, d.start j idx a + ((d.window j a : ℕ) : ℤ) = (((i a).val : ℕ) : ℤ)) :
    d.resultIdx? j idx = some i := by
  have hc : ∀ a, 0 ≤ d.start j idx a + ((d.window j a : ℕ) : ℤ) ∧
      d.start j idx a + ((d.window j a : ℕ) : ℤ) < ((s.size a : ℕ) : ℤ) := by
    intro a
    rw [h a]
    exact ⟨Int.natCast_nonneg _, Int.ofNat_lt.mpr (i a).isLt⟩
  unfold ScatterDims.resultIdx?
  rw [dif_pos hc]
  refine congrArg some (funext fun a => Fin.ext ?_)
  show Int.toNat (d.start j idx a + ((d.window j a : ℕ) : ℤ)) = (i a).val
  rw [h a]
  exact Int.toNat_natCast _

/-- The one coordinate of the place a row's update lands is the row's bin as a natural number. -/
theorem binIdx_val (X : SX.Idx → EReal) (G : SG.Idx → EReal) (n : Fin S262144.numel) :
    (binIdx X G n 0).val = (binOf (mxN X G n.val)).toNat := rfl

/-- Every update of this scatter is in bounds: it lands at its row's bin. -/
theorem resultIdx_eq (X : SX.Idx → EReal) (G : SG.Idx → EReal) (n : Fin S262144.numel) :
    scatter_S50_S262144x1_S262144_n_0_0_1.resultIdx? (S262144.rowMajor.symm n) (val_main_v58 (F := Ideal) X G)
      = some (binIdx X G n) := by
  refine resultIdx?_eq_some_of _ _ _ (binIdx X G n) ?_
  intro a
  have ha : a = (0 : Fin 1) := Subsingleton.elim _ _
  subst ha
  rw [binIdx_val]
  exact start_add_window X G n 0

/-- A row's update lands on bin `b` exactly when the row's bin is the word of `b`'s coordinate. -/
theorem binIdx_eq_iff (X : SX.Idx → EReal) (G : SG.Idx → EReal) (n : Fin S262144.numel) (b : S50.Idx) :
    binIdx X G n = b ↔ binOf (mxN X G n.val) = BitVec.ofNat 32 (b 0).val := by
  have hb : (b 0).val < 50 := (b 0).isLt
  constructor
  · intro h
    have h0 : (binOf (mxN X G n.val)).toNat = (b 0).val := congrArg (fun i : S50.Idx => (i 0).val) h
    rw [← h0, BitVec.ofNat_toNat, BitVec.setWidth_eq]
  · intro h
    funext a
    have ha : a = 0 := Subsingleton.elim _ _
    subst ha
    refine Fin.ext ?_
    show (binOf (mxN X G n.val)).toNat = (b 0).val
    rw [h, BitVec.toNat_ofNat]
    exact Nat.mod_eq_of_lt (by omega)

/-- Counting positions of a list of length `M = 262144` by a predicate of the position is counting over the rows. -/
theorem count_bridge (M : ℕ) (hM : M = 262144) (p : ℕ → Prop) [DecidablePred p] :
    (List.finRange M).countP (fun n => decide (p n.val)) = ((Finset.range 262144).filter p).card := by
  subst hM
  exact countP_finRange_eq_card _ p

theorem v60_eq (X : SX.Idx → EReal) (G : SG.Idx → EReal) : val_main_v60 (F := Ideal) X G = histSpec X G := by
  funext b
  unfold val_main_v60 Host.scatter
  refine (foldl_addOne_count (binIdx X G) _ ?_ _ _ b).trans ?_
  · intro r n
    rw [resultIdx_eq X G n]
    funext i'
    show (if i' = binIdx X G n then IntOp.addi (r (binIdx X G n)) (val_main_v59 (F := Ideal) (S262144.rowMajor.symm n)) else r i') = _
    rw [val_main_v59_apply, val_main_c_7_apply]
    rfl
  · rw [val_main_v51_apply, val_main_c_3_apply, BitVec.zero_add]
    show _ = BitVec.ofNat 32 (histCount X G (b 0).val)
    refine congrArg (BitVec.ofNat 32) ?_
    unfold histCount
    rw [List.countP_congr (q := fun n : Fin S262144.numel => decide (binOf (mxN X G n.val) = BitVec.ofNat 32 (b 0).val))
      (fun n _ => by simp only [decide_eq_true_eq]; exact binIdx_eq_iff X G n b)]
    exact count_bridge S262144.numel (Shape.numel_rank1 _) (fun j => binOf (mxN X G j) = BitVec.ofNat 32 (b 0).val)

end Cert.ReferenceIdeal.RefVal

end
-- ==== Proof.lean ====
/-
  The certificate of the aligned-IoU histogram kernel against its jnp reference.

  Both programs compute, for each of 262144 ground-truth rows, the largest intersection over union of the row's 64
  proposal boxes against the row's box, bin it by ⌊value / 0.02⌋ capped at 49, and return the fifty-bin histogram
  of the bins and the mean of the row values (Proof/Spec.lean states this once, over the extended reals).
  The kernel walks the rows in 64 tiles of 4096 on a 2 × 32 grid, counting each tile's bins with a one-hot compare
  against a lane index and accumulating, per core, the counts and the sum in two 128-lane blocks; the host then adds
  the two cores' blocks, keeps fifty lanes, converts the counts to integers and divides the sum by the row count.
  The reference computes the row values at once, scatters a one into the histogram at each row's bin (after a clip at
  zero and a wrap of negative indices, both the identity on a bin in 0 … 49) and sums the values.
  The two agree because every quotient is nonnegative (an area clipped at zero over a union floored at a positive
  constant), so every bin is a word in 0 … 49; because sums over the extended reals re-associate freely (tiles, cores,
  lanes against one sum over the rows); and because a count of at most 262144 rows converts exactly from its real
  value to its 32-bit word.
  The frames of the two kernel programs are the generated ones; the reference's frame is its generated run.
-/
import proofs.«146943_j72954314490246_1_alg».proof.Defs
import proofs.«146943_j72954314490246_1_alg».proof.Proof.Gen.Kernel
import proofs.«146943_j72954314490246_1_alg».proof.Proof.Gen.Kernel.Skeleton
import proofs.«146943_j72954314490246_1_alg».proof.Proof.Gen.Kernel.Launch
import proofs.«146943_j72954314490246_1_alg».proof.Proof.Gen.Kernel.Points
import proofs.«146943_j72954314490246_1_alg».proof.Proof.Gen.Kernel.Frame
import proofs.«146943_j72954314490246_1_alg».proof.Proof.Gen.KernelIdeal
import proofs.«146943_j72954314490246_1_alg».proof.Proof.Gen.KernelIdeal.Skeleton
import proofs.«146943_j72954314490246_1_alg».proof.Proof.Gen.KernelIdeal.Launch
import proofs.«146943_j72954314490246_1_alg».proof.Proof.Gen.KernelIdeal.Points
import proofs.«146943_j72954314490246_1_alg».proof.Proof.Gen.KernelIdeal.Frame
import proofs.«146943_j72954314490246_1_alg».proof.Proof.Gen.ReferenceIdeal
import proofs.«146943_j72954314490246_1_alg».proof.Proof.Gen.Pre_finite_inputs
import proofs.«146943_j72954314490246_1_alg».proof.Proof.Gen.ReferenceIdeal.Run
import proofs.«146943_j72954314490246_1_alg».proof.Proof.Gen.ReferenceIdeal.Read
import proofs.«146943_j72954314490246_1_alg».proof.Proof.Spec
import proofs.«146943_j72954314490246_1_alg».proof.Proof.KDefs
import proofs.«146943_j72954314490246_1_alg».proof.Proof.KFinal
import proofs.«146943_j72954314490246_1_alg».proof.Proof.KAlgebra
import proofs.«146943_j72954314490246_1_alg».proof.Proof.RRead
import proofs.«146943_j72954314490246_1_alg».proof.Proof.RScatter
import Idealize.ShloMosaic.Adequacy
import Idealize.ShloMosaic.Init

noncomputable section

namespace Cert.Proof

open Idealize.ShloMosaic Idealize.SL.Sem Cert.IouHist

/-- The reference's frame: its generated run, the results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- At the ideal instance both programs end with the specification's histogram and mean of the argument arrays: the
    kernel by its run read through the accumulation and the host lines after the region, the reference by its run
    read stage by stage. -/
theorem algebraic : Cert.algebraic_KernelIdeal_ReferenceIdeal := by
  intro m ρ m' ρ' _ hagree
  refine ⟨fun c => histSpec (Cert.KernelIdeal.Val.Xof m c) (Cert.KernelIdeal.Val.Gof m c),
    fun c => meanSpec (Cert.KernelIdeal.Val.Xof m c) (Cert.KernelIdeal.Val.Gof m c), ?_, ?_⟩
  · refine (θ_run Cert.KernelIdeal.defs _ _).mono (fun _ h c => ?_) (Cert.KernelIdeal.Val.run m ρ)
    obtain ⟨h1, h2, h3, h4⟩ := h c
    exact ⟨h1.trans (Cert.KernelIdeal.Val.tailHist_eq _ _), h2.trans (Cert.KernelIdeal.Val.tailMean_eq _ _), h3, h4⟩
  · refine (θ_run Cert.ReferenceIdeal.defs _ _).mono (fun _ h c => ?_) (Cert.ReferenceIdeal.Value.run (F := Ideal) m' ρ')
    obtain ⟨h1, h2, h3, h4⟩ := h c
    refine ⟨h1.trans ?_, h2.trans ?_, h3, h4⟩
    · rw [Cert.ReferenceIdeal.Read.val_main_v60_eq, (hagree c).1, (hagree c).2]
      exact Cert.ReferenceIdeal.RefVal.v60_eq _ _
    · rw [Cert.ReferenceIdeal.Read.val_main_v62_eq, (hagree c).1, (hagree c).2]
      exact Cert.ReferenceIdeal.RefVal.v62_eq _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
